-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S393216 : Shape := ⟨1, ![393216]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S393216 : S_.BroadcastsInDim S393216 (![] : Fin 0 → Fin S393216.rank)
  reducesTo_S393216_S_d0 : S393216.ReducesTo [0] S_

variable [Facts]

def fn_part1 {F : FTy → Type} [FloatOps F] (main_arg4 : FVec F S393216 .f32) (main_v13 : IVec S_ 1) (main_v16 : IVec S12288x64 1) : IVec S_ 1 :=
  let main_c_5 : IVec S_ 1 := constantI S_ 1 1#1
  let main_v17 : IVec S_ 1 := (fun x v => Host.reduce IntOp.andi x v reducesTo_S12288x64_S_d0_1 h_S_) main_v16 main_c_5
  let main_v18 : IVec S_ 1 := andi main_v13 main_v17
  let main_v19 : FVec F S393216 .f32 := Host.absf main_arg4
  let main_cst_6 : FVec F S_ .f32 := constant S_ .f32 0x7F800000#32
  let main_v20 : FVec F S393216 .f32 := broadcastInDim S393216 ![] bcast_S_S393216 main_cst_6
  let main_v21 : IVec S393216 1 := cmpf .olt main_v19 main_v20
  let main_c_7 : IVec S_ 1 := constantI S_ 1 1#1
  let main_v22 : IVec S_ 1 := (fun x v => Host.reduce IntOp.andi x v reducesTo_S393216_S_d0 h_S_) main_v21 main_c_7
  let main_v23 : IVec S_ 1 := andi main_v18 main_v22
  main_v23

def fn {F : FTy → Type} [FloatOps F] (main_arg0 : FVec F S12288x64 .f32) (main_arg1 : FVec F S12288x64 .f32) (main_arg2 : FVec F S12288x64 .f32) (main_arg3 : FVec F S12288x64 .f32) (main_arg4 : FVec F S393216 .f32) (main_arg5 : IVec S393216 32) (main_arg6 : IVec S393216 32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S12288x64 .f32 := Host.absf main_arg1
  let main_cst_0 : FVec F S_ .f32 := constant S_ .f32 0x7F800000#32
  let main_v5 : FVec F S12288x64 .f32 := broadcastInDim S12288x64 ![] bcast_S_S12288x64 main_cst_0
  let main_v6 : IVec S12288x64 1 := cmpf .olt main_v4 main_v5
  let main_c_1 : IVec S_ 1 := constantI S_ 1 1#1
  let main_v7 : IVec S_ 1 := (fun x v => Host.reduce IntOp.andi x v reducesTo_S12288x64_S_d0_1 h_S_) main_v6 main_c_1
  let main_v8 : IVec S_ 1 := andi main_v3 main_v7
  let main_v9 : FVec F S12288x64 .f32 := Host.absf main_arg2
  let main_cst_2 : FVec F S_ .f32 := constant S_ .f32 0x7F800000#32
  let main_v10 : FVec F S12288x64 .f32 := broadcastInDim S12288x64 ![] bcast_S_S12288x64 main_cst_2
  let main_v11 : IVec S12288x64 1 := cmpf .olt main_v9 main_v10
  let main_c_3 : IVec S_ 1 := constantI S_ 1 1#1
  let main_v12 : IVec S_ 1 := (fun x v => Host.reduce IntOp.andi x v reducesTo_S12288x64_S_d0_1 h_S_) main_v11 main_c_3
  let main_v13 : IVec S_ 1 := andi main_v8 main_v12
  let main_v14 : FVec F S12288x64 .f32 := Host.absf main_arg3
  let main_cst_4 : FVec F S_ .f32 := constant S_ .f32 0x7F800000#32
  let main_v15 : FVec F S12288x64 .f32 := broadcastInDim S12288x64 ![] bcast_S_S12288x64 main_cst_4
  let main_v16 : IVec S12288x64 1 := cmpf .olt main_v14 main_v15
  fn_part1 (F := F) main_arg4 main_v13 main_v16
-- ==== Kernel.lean ====
abbrev S12288x64 : Shape := ⟨2, ![12288, 64]⟩
abbrev S393216 : Shape := ⟨1, ![393216]⟩
abbrev S12288x1 : Shape := ⟨2, ![12288, 1]⟩
abbrev S1536x64 : Shape := ⟨2, ![1536, 64]⟩
abbrev S1536x1 : Shape := ⟨2, ![1536, 1]⟩
abbrev S1536x1536 : Shape := ⟨2, ![1536, 1536]⟩
abbrev S1536 : Shape := ⟨1, ![1536]⟩
abbrev S12288 : Shape := ⟨1, ![12288]⟩
abbrev S_ : Shape := ⟨0, ![]⟩
abbrev S393216x1 : Shape := ⟨2, ![393216, 1]⟩
abbrev S393216x64 : Shape := ⟨2, ![393216, 64]⟩
abbrev S2x12288x128 : Shape := ⟨3, ![2, 12288, 128]⟩
abbrev S512x64 : Shape := ⟨2, ![512, 64]⟩
abbrev S512x1 : Shape := ⟨2, ![512, 1]⟩
abbrev S1x12288x128 : Shape := ⟨3, ![1, 12288, 128]⟩
abbrev S12288x128 : Shape := ⟨2, ![12288, 128]⟩
abbrev S512x63 : Shape := ⟨2, ![512, 63]⟩
abbrev S512x128 : Shape := ⟨2, ![512, 128]⟩
abbrev S1x12288 : Shape := ⟨2, ![1, 12288]⟩
abbrev S512x12288 : Shape := ⟨2, ![512, 12288]⟩

abbrev nBuf : Space → Nat
  | .hbm => 78
  | .vmem => 14
  | .smem => 0
  | _ => 0

abbrev bufTy : (tb : Table) → Fin (tcTables nBuf tb) → BufTy
  | .hbm, ⟨0, _⟩ => ⟨S12288x64, .f32⟩
  | .hbm, ⟨1, _⟩ => ⟨S12288x64, .f32⟩
  | .hbm, ⟨2, _⟩ => ⟨S12288x64, .f32⟩
  | .hbm, ⟨3, _⟩ => ⟨S12288x64, .f32⟩
  | .hbm, ⟨4, _⟩ => ⟨S393216, .f32⟩
  | .hbm, ⟨5, _⟩ => ⟨S393216, .i32⟩
  | .hbm, ⟨6, _⟩ => ⟨S393216, .i32⟩
  | .hbm, ⟨7, _⟩ => ⟨S12288x64, .bf16⟩
  | .hbm, ⟨8, _⟩ => ⟨S12288x64, .bf16⟩
  | .hbm, ⟨9, _⟩ => ⟨S12288x1, .f32⟩
  | .hbm, ⟨10, _⟩ => ⟨S12288, .f32⟩
  | .hbm, ⟨11, _⟩ => ⟨S_, .i32⟩
  | .hbm, ⟨12, _⟩ => ⟨S393216, .i32⟩
  | .hbm, ⟨13, _⟩ => ⟨S393216, .i1⟩
  | .hbm, ⟨14, _⟩ => ⟨S_, .i32⟩
  | .hbm, ⟨15, _⟩ => ⟨S393216, .i32⟩
  | .hbm, ⟨16, _⟩ => ⟨S393216, .i32⟩
  | .hbm, ⟨17, _⟩ => ⟨S393216, .i32⟩
  | .hbm, ⟨18, _⟩ => ⟨S393216x1, .i32⟩
  | .hbm, ⟨19, _⟩ => ⟨S393216x64, .f32⟩
  | .hbm, ⟨20, _⟩ => ⟨S_, .i32⟩
  | .hbm, ⟨21, _⟩ => ⟨S393216, .i32⟩
  | .hbm, ⟨22, _⟩ => ⟨S393216, .i1⟩
  | .hbm, ⟨23, _⟩ => ⟨S_, .i32⟩
  | .hbm, ⟨24, _⟩ => ⟨S393216, .i32⟩
  | .hbm, ⟨25, _⟩ => ⟨S393216, .i32⟩
  | .hbm, ⟨26, _⟩ => ⟨S393216, .i32⟩
  | .hbm, ⟨27, _⟩ => ⟨S393216x1, .i32⟩
  | .hbm, ⟨28, _⟩ => ⟨S393216x64, .f32⟩
  | .hbm, ⟨29, _⟩ => ⟨S_, .i32⟩
  | .hbm, ⟨30, _⟩ => ⟨S393216, .i32⟩
  | .hbm, ⟨31, _⟩ => ⟨S393216, .i1⟩
  | .hbm, ⟨32, _⟩ => ⟨S_, .i32⟩
  | .hbm, ⟨33, _⟩ => ⟨S393216, .i32⟩
  | .hbm, ⟨34, _⟩ => ⟨S393216, .i32⟩
  | .hbm, ⟨35, _⟩ => ⟨S393216, .i32⟩
  | .hbm, ⟨36, _⟩ => ⟨S393216x1, .i32⟩
  | .hbm, ⟨37, _⟩ => ⟨S393216x64, .f32⟩
  | .hbm, ⟨38, _⟩ => ⟨S_, .i32⟩
  | .hbm, ⟨39, _⟩ => ⟨S393216, .i32⟩
  | .hbm, ⟨40, _⟩ => ⟨S393216, .i1⟩
  | .hbm, ⟨41, _⟩ => ⟨S_, .i32⟩
  | .hbm, ⟨42, _⟩ => ⟨S393216, .i32⟩
  | .hbm, ⟨43, _⟩ => ⟨S393216, .i32⟩
  | .hbm, ⟨44, _⟩ => ⟨S393216, .i32⟩
  | .hbm, ⟨45, _⟩ => ⟨S393216x1, .i32⟩
  | .hbm, ⟨46, _⟩ => ⟨S393216, .f32⟩
  | .hbm, ⟨47, _⟩ => ⟨S393216x64, .f32⟩
  | .hbm, ⟨48, _⟩ => ⟨S_, .f32⟩
  | .hbm, ⟨49, _⟩ => ⟨S393216, .f32⟩
  | .hbm, ⟨50, _⟩ => ⟨S_, .f32⟩
  | .hbm, ⟨51, _⟩ => ⟨S393216, .f32⟩
  | .hbm, ⟨52, _⟩ => ⟨S393216, .f32⟩
  | .hbm, ⟨53, _⟩ => ⟨S393216, .f32⟩
  | .hbm, ⟨54, _⟩ => ⟨S_, .f32⟩
  | .hbm, ⟨55, _⟩ => ⟨S393216, .f32⟩
  | .hbm, ⟨56, _⟩ => ⟨S393216, .f32⟩
  | .hbm, ⟨57, _⟩ => ⟨S393216, .f32⟩
  | .hbm, ⟨58, _⟩ => ⟨S393216x1, .f32⟩
  | .hbm, ⟨59, _⟩ => ⟨S393216x1, .i32⟩
  | .hbm, ⟨60, _⟩ => ⟨S2x12288x128, .f32⟩
  | .hbm, ⟨61, _⟩ => ⟨S1x12288x128, .f32⟩
  | .hbm, ⟨62, _⟩ => ⟨S12288x128, .f32⟩
  | .hbm, ⟨63, _⟩ => ⟨S1x12288x128, .f32⟩
  | .hbm, ⟨64, _⟩ => ⟨S12288x128, .f32⟩
  | .hbm, ⟨65, _⟩ => ⟨S12288x128, .f32⟩
  | .hbm, ⟨66, _⟩ => ⟨S12288x64, .f32⟩
  | .hbm, ⟨67, _⟩ => ⟨S12288x1, .f32⟩
  | .hbm, ⟨68, _⟩ => ⟨S_, .f32⟩
  | .hbm, ⟨69, _⟩ => ⟨S12288x1, .f32⟩
  | .hbm, ⟨70, _⟩ => ⟨S12288x1, .i1⟩
  | .hbm, ⟨71, _⟩ => ⟨S_, .f32⟩
  | .hbm, ⟨72, _⟩ => ⟨S_, .f32⟩
  | .hbm, ⟨73, _⟩ => ⟨S12288x1, .f32⟩
  | .hbm, ⟨74, _⟩ => ⟨S12288x1, .f32⟩
  | .hbm, ⟨75, _⟩ => ⟨S12288x64, .f32⟩
  | .hbm, ⟨76, _⟩ => ⟨S12288x64, .f32⟩
  | .hbm, ⟨77, _⟩ => ⟨S12288x64, .f32⟩
  | .local _ .vmem, ⟨0, _⟩ => ⟨S1536x64, .bf16⟩
  | .local _ .vmem, ⟨1, _⟩ => ⟨S1536x64, .bf16⟩
  | .local _ .vmem, ⟨2, _⟩ => ⟨S1536x64, .bf16⟩
  | .local _ .vmem, ⟨3, _⟩ => ⟨S1536x64, .bf16⟩
  | .local _ .vmem, ⟨4, _⟩ => ⟨S1536x1, .f32⟩
  | .local _ .vmem, ⟨5, _⟩ => ⟨S1536x1, .f32⟩
  | .local _ .vmem, ⟨6, _⟩ => ⟨S512x64, .f32⟩
  | .local _ .vmem, ⟨7, _⟩ => ⟨S512x64, .f32⟩
  | .local _ .vmem, ⟨8, _⟩ => ⟨S512x1, .f32⟩
  | .local _ .vmem, ⟨9, _⟩ => ⟨S512x1, .f32⟩
  | .local _ .vmem, ⟨10, _⟩ => ⟨S512x1, .i32⟩
  | .local _ .vmem, ⟨11, _⟩ => ⟨S512x1, .i32⟩
  | .local _ .vmem, ⟨12, _⟩ => ⟨S1x12288x128, .f32⟩
  | .local _ .vmem, ⟨13, _⟩ => ⟨S1x12288x128, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 384], ![false, false]⟩

def cc1_transform_0 (i : grid1.Coords) : Fin 2 → Nat :=
  let arg0 : BitVec 32 := BitVec.ofNat 32 (i 0).val
  let arg1 : BitVec 32 := BitVec.ofNat 32 (i 1).val
  let c384_i32 : BitVec 32 := 384#32
  let v0 : BitVec 32 := Scalar.muli arg0 c384_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c384_i32 : BitVec 32 := 384#32
  let v0 : BitVec 32 := Scalar.muli arg0 c384_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c384_i32 : BitVec 32 := 384#32
  let v0 : BitVec 32 := Scalar.muli arg0 c384_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x12288x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1536x1_S1536x1_0_0 : ∀ a, (![0, 0] : Fin 2 → Nat) a + S1536x1.size a ≤ S1536x1.size a
  h_S1536x1 : 0 < S1536x1.numel
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  reduces_S1536x1536_S1536 : S1536x1536.Reduces [1] S1536
  shapeCasts_S1536_S1536x1 : S1536.ShapeCasts S1536x1
  shapeCasts_S1536x1_S1536x1 : S1536x1.ShapeCasts S1536x1
  shapeCasts_S12288x1_S12288 : S12288x1.ShapeCasts S12288
  bcast_S_S393216 : S_.BroadcastsInDim S393216 (![] : Fin 0 → Fin S393216.rank)
  bcast_S393216_S393216x1_0 : S393216.BroadcastsInDim S393216x1 (![0] : Fin 1 → Fin S393216x1.rank)
  reducesTo_S393216x64_S393216_d1 : S393216x64.ReducesTo [1] S393216
  h_S_ : 0 < S_.numel
  shapeCasts_S393216_S393216x1 : S393216.ShapeCasts S393216x1
  inb_S1x12288x128_S1x12288x128_0_0_0 : ∀ a, (![0, 0, 0] : Fin 3 → Nat) a + S1x12288x128.size a ≤ S1x12288x128.size a
  h_S1x12288x128 : 0 < S1x12288x128.numel
  shapeCasts_S1x12288x128_S12288x128 : S1x12288x128.ShapeCasts S12288x128
  shapeCasts_S12288x128_S1x12288x128 : S12288x128.ShapeCasts S1x12288x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  concatenates_S512x64_S512x1_S512x63_S512x128_d1 : Shape.Concatenates [S512x64, S512x1, S512x63] S512x128 1
  iota_S1x12288_d1_w32 : S1x12288.Iotas .tc 32 [1]
  broadcasts_S1x12288_S512x12288 : S1x12288.Broadcasts S512x12288
  broadcasts_S512x1_S512x12288 : S512x1.Broadcasts S512x12288
  natLt_1_32 : 1 < 32
  slices_S2x12288x128_S1x12288x128_0_0_0 : S2x12288x128.Slices ![0, 0, 0] S1x12288x128
  slices_S2x12288x128_S1x12288x128_1_0_0 : S2x12288x128.Slices ![1, 0, 0] S1x12288x128
  slices_S12288x128_S12288x64_0_0 : S12288x128.Slices ![0, 0] S12288x64
  slices_S12288x128_S12288x1_0_64 : S12288x128.Slices ![0, 64] S12288x1
  bcast_S_S12288x1 : S_.BroadcastsInDim S12288x1 (![] : Fin 0 → Fin S12288x1.rank)
  bcast_S12288x1_S12288x64_0_1 : S12288x1.BroadcastsInDim S12288x64 (![0, 1] : Fin 2 → Fin S12288x64.rank)
  dot_S1536x64_S1536x64_S1536x1536_1_1_0_0_n_n_wf : DotDims.WF S1536x64 S1536x64 S1536x1536 [1] [1] [0] [0] [] []
  gather_S12288x64_S393216x1_S393216x64_1_0_n_n_0_1_164_wf : GatherDims.WF S12288x64 S393216x1 S393216x64 [1] [0] [] [0] [] 1 ![1, 64]
  gather_S12288_S393216x1_S393216_n_0_n_n_0_1_1_wf : GatherDims.WF S12288 S393216x1 S393216 [] [0] [] [0] [] 1 ![1]
  dot_S512x12288_S512x128_S12288x128_0_0_1_1_n_n_wf : DotDims.WF S512x12288 S512x128 S12288x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x64.size a ≤ S12288x64.size a
  hwx0_0 : ∀ i : grid0.Coords, EltTy.bits .bf16 = 32 ∨ (Rect.block (s := S12288x64) S1536x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x64.size a ≤ S12288x64.size a
  hwx0_1 : ∀ i : grid0.Coords, EltTy.bits .bf16 = 32 ∨ (Rect.block (s := S12288x64) S1536x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x1.size a ≤ S12288x1.size a
  hwx0_2 : ∀ i : grid0.Coords, EltTy.bits .f32 = 32 ∨ (Rect.block (s := S12288x1) S1536x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S393216x64.size a
  hwx1_0 : ∀ i : grid1.Coords, EltTy.bits .f32 = 32 ∨ (Rect.block (s := S393216x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S393216x1.size a
  hwx1_1 : ∀ i : grid1.Coords, EltTy.bits .f32 = 32 ∨ (Rect.block (s := S393216x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S393216x1.size a
  hwx1_2 : ∀ i : grid1.Coords, EltTy.bits .i32 = 32 ∨ (Rect.block (s := S393216x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x12288x128.size a ≤ S2x12288x128.size a
  hwx1_3 : ∀ i : grid1.Coords, EltTy.bits .f32 = 32 ∨ (Rect.block (s := S2x12288x128) S1x12288x128.size (cc1_transform_3 i) (hinb1_3 i)).WholeWords (EltTy.packing .f32)

variable [Facts₀]

def dot_S1536x64_S1536x64_S1536x1536_1_1_0_0_n_n : DotDims S1536x64 S1536x64 S1536x1536 where
  lhsContracting := [1]
  rhsContracting := [1]
  lhsNonContracting := [0]
  rhsNonContracting := [0]
  lhsBatch := []
  rhsBatch := []
  wf := dot_S1536x64_S1536x64_S1536x1536_1_1_0_0_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def dot_S512x12288_S512x128_S12288x128_0_0_1_1_n_n : DotDims S512x12288 S512x128 S12288x128 where
  lhsContracting := [0]
  rhsContracting := [0]
  lhsNonContracting := [1]
  rhsNonContracting := [1]
  lhsBatch := []
  rhsBatch := []
  wf := dot_S512x12288_S512x128_S12288x128_0_0_1_1_n_n_wf

abbrev win0_0 : Pipeline.Window sig grid0 :=
  Pipeline.Window.ofSpec (Memref.whole main_v1) S1536x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1536x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x12288x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S12288x64 : Shape := ⟨2, ![12288, 64]⟩
abbrev S393216 : Shape := ⟨1, ![393216]⟩
abbrev S64x12288 : Shape := ⟨2, ![64, 12288]⟩
abbrev S12288x12288 : Shape := ⟨2, ![12288, 12288]⟩
abbrev S_ : Shape := ⟨0, ![]⟩
abbrev S12288 : Shape := ⟨1, ![12288]⟩
abbrev S393216x1 : Shape := ⟨2, ![393216, 1]⟩
abbrev S393216x2 : Shape := ⟨2, ![393216, 2]⟩
abbrev S393216x64 : Shape := ⟨2, ![393216, 64]⟩

abbrev nBuf : Space → Nat
  | .hbm => 83
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S12288x64, .f32⟩
  | .hbm, ⟨2, _⟩ => ⟨S12288x64, .f32⟩
  | .hbm, ⟨3, _⟩ => ⟨S12288x64, .f32⟩
  | .hbm, ⟨4, _⟩ => ⟨S393216, .f32⟩
  | .hbm, ⟨5, _⟩ => ⟨S393216, .i32⟩
  | .hbm, ⟨6, _⟩ => ⟨S393216, .i32⟩
  | .hbm, ⟨7, _⟩ => ⟨S64x12288, .f32⟩
  | .hbm, ⟨8, _⟩ => ⟨S12288x12288, .f32⟩
  | .hbm, ⟨9, _⟩ => ⟨S_, .f32⟩
  | .hbm, ⟨10, _⟩ => ⟨S_, .f32⟩
  | .hbm, ⟨11, _⟩ => ⟨S12288x12288, .f32⟩
  | .hbm, ⟨12, _⟩ => ⟨S12288x12288, .f32⟩
  | .hbm, ⟨13, _⟩ => ⟨S_, .f32⟩
  | .hbm, ⟨14, _⟩ => ⟨S12288, .f32⟩
  | .hbm, ⟨15, _⟩ => ⟨S_, .i32⟩
  | .hbm, ⟨16, _⟩ => ⟨S393216, .i32⟩
  | .hbm, ⟨17, _⟩ => ⟨S393216, .i1⟩
  | .hbm, ⟨18, _⟩ => ⟨S_, .i32⟩
  | .hbm, ⟨19, _⟩ => ⟨S393216, .i32⟩
  | .hbm, ⟨20, _⟩ => ⟨S393216, .i32⟩
  | .hbm, ⟨21, _⟩ => ⟨S393216, .i32⟩
  | .hbm, ⟨22, _⟩ => ⟨S_, .i32⟩
  | .hbm, ⟨23, _⟩ => ⟨S393216, .i32⟩
  | .hbm, ⟨24, _⟩ => ⟨S393216, .i1⟩
  | .hbm, ⟨25, _⟩ => ⟨S_, .i32⟩
  | .hbm, ⟨26, _⟩ => ⟨S393216, .i32⟩
  | .hbm, ⟨27, _⟩ => ⟨S393216, .i32⟩
  | .hbm, ⟨28, _⟩ => ⟨S393216, .i32⟩
  | .hbm, ⟨29, _⟩ => ⟨S393216x1, .i32⟩
  | .hbm, ⟨30, _⟩ => ⟨S393216x1, .i32⟩
  | .hbm, ⟨31, _⟩ => ⟨S393216x2, .i32⟩
  | .hbm, ⟨32, _⟩ => ⟨S393216, .f32⟩
  | .hbm, ⟨33, _⟩ => ⟨S_, .i32⟩
  | .hbm, ⟨34, _⟩ => ⟨S393216, .i32⟩
  | .hbm, ⟨35, _⟩ => ⟨S393216, .i1⟩
  | .hbm, ⟨36, _⟩ => ⟨S_, .i32⟩
  | .hbm, ⟨37, _⟩ => ⟨S393216, .i32⟩
  | .hbm, ⟨38, _⟩ => ⟨S393216, .i32⟩
  | .hbm, ⟨39, _⟩ => ⟨S393216, .i32⟩
  | .hbm, ⟨40, _⟩ => ⟨S393216x1, .i32⟩
  | .hbm, ⟨41, _⟩ => ⟨S393216, .f32⟩
  | .hbm, ⟨42, _⟩ => ⟨S393216, .f32⟩
  | .hbm, ⟨43, _⟩ => ⟨S393216, .f32⟩
  | .hbm, ⟨44, _⟩ => ⟨S393216, .f32⟩
  | .hbm, ⟨45, _⟩ => ⟨S_, .f32⟩
  | .hbm, ⟨46, _⟩ => ⟨S12288, .f32⟩
  | .hbm, ⟨47, _⟩ => ⟨S393216x1, .i32⟩
  | .hbm, ⟨48, _⟩ => ⟨S12288, .f32⟩
  | .hbm, ⟨49, _⟩ => ⟨S_, .f32⟩
  | .hbm, ⟨50, _⟩ => ⟨S12288, .f32⟩
  | .hbm, ⟨51, _⟩ => ⟨S12288, .i1⟩
  | .hbm, ⟨52, _⟩ => ⟨S_, .f32⟩
  | .hbm, ⟨53, _⟩ => ⟨S_, .f32⟩
  | .hbm, ⟨54, _⟩ => ⟨S12288, .f32⟩
  | .hbm, ⟨55, _⟩ => ⟨S12288, .f32⟩
  | .hbm, ⟨56, _⟩ => ⟨S_, .i32⟩
  | .hbm, ⟨57, _⟩ => ⟨S393216, .i32⟩
  | .hbm, ⟨58, _⟩ => ⟨S393216, .i1⟩
  | .hbm, ⟨59, _⟩ => ⟨S_, .i32⟩
  | .hbm, ⟨60, _⟩ => ⟨S393216, .i32⟩
  | .hbm, ⟨61, _⟩ => ⟨S393216, .i32⟩
  | .hbm, ⟨62, _⟩ => ⟨S393216, .i32⟩
  | .hbm, ⟨63, _⟩ => ⟨S393216x1, .i32⟩
  | .hbm, ⟨64, _⟩ => ⟨S393216, .f32⟩
  | .hbm, ⟨65, _⟩ => ⟨S393216, .f32⟩
  | .hbm, ⟨66, _⟩ => ⟨S393216x1, .f32⟩
  | .hbm, ⟨67, _⟩ => ⟨S_, .i32⟩
  | .hbm, ⟨68, _⟩ => ⟨S393216, .i32⟩
  | .hbm, ⟨69, _⟩ => ⟨S393216, .i1⟩
  | .hbm, ⟨70, _⟩ => ⟨S_, .i32⟩
  | .hbm, ⟨71, _⟩ => ⟨S393216, .i32⟩
  | .hbm, ⟨72, _⟩ => ⟨S393216, .i32⟩
  | .hbm, ⟨73, _⟩ => ⟨S393216, .i32⟩
  | .hbm, ⟨74, _⟩ => ⟨S393216x1, .i32⟩
  | .hbm, ⟨75, _⟩ => ⟨S393216x64, .f32⟩
  | .hbm, ⟨76, _⟩ => ⟨S393216x64, .f32⟩
  | .hbm, ⟨77, _⟩ => ⟨S393216x64, .f32⟩
  | .hbm, ⟨78, _⟩ => ⟨S_, .f32⟩
  | .hbm, ⟨79, _⟩ => ⟨S12288x64, .f32⟩
  | .hbm, ⟨80, _⟩ => ⟨S393216x1, .i32⟩
  | .hbm, ⟨81, _⟩ => ⟨S12288x64, .f32⟩
  | .hbm, ⟨82, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  transposes_S12288x64_S64x12288_1_0 : S12288x64.Transposes [1, 0] S64x12288
  bcast_S_S12288x12288 : S_.BroadcastsInDim S12288x12288 (![] : Fin 0 → Fin S12288x12288.rank)
  reducesTo_S12288x12288_S12288_d0 : S12288x12288.ReducesTo [0] S12288
  h_S_ : 0 < S_.numel
  bcast_S_S393216 : S_.BroadcastsInDim S393216 (![] : Fin 0 → Fin S393216.rank)
  bcast_S393216_S393216x1_0 : S393216.BroadcastsInDim S393216x1 (![0] : Fin 1 → Fin S393216x1.rank)
  concatenates_S393216x1_S393216x1_S393216x2_d1 : Shape.Concatenates [S393216x1, S393216x1] S393216x2 1
  bcast_S_S12288 : S_.BroadcastsInDim S12288 (![] : Fin 0 → Fin S12288.rank)
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  dot_S12288x64_S64x12288_S12288x12288_1_0_0_1_n_n_wf : DotDims.WF S12288x64 S64x12288 S12288x12288 [1] [0] [0] [1] [] []
  gather_S12288x12288_S393216x2_S393216_n_01_n_n_01_1_11_wf : GatherDims.WF S12288x12288 S393216x2 S393216 [] [0, 1] [] [0, 1] [] 1 ![1, 1]
  gather_S12288_S393216x1_S393216_n_0_n_n_0_1_1_wf : GatherDims.WF S12288 S393216x1 S393216 [] [0] [] [0] [] 1 ![1]
  scatter_S12288_S393216x1_S393216_n_0_0_1_wf : ScatterDims.WF S12288 S393216x1 S393216 [] [0] [0] 1
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1

variable [Facts₀]

def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf
def gather_S12288x12288_S393216x2_S393216_n_01_n_n_01_1_11 : GatherDims S12288x12288 S393216x2 S393216 where
  offsetDims := []
  collapsedSliceDims := [0, 1]
  operandBatchingDims := []
  startIndicesBatchingDims := []
  startIndexMap := [0, 1]
  indexVectorDim := 1
  sliceSizes := ![1, 1]
  wf := gather_S12288x12288_S393216x2_S393216_n_01_n_n_01_1_11_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf

class Facts : Prop extends Facts₀ where

variable [Facts]
-- ==== Proof.Spec.lean ====
/-
  The mathematics both programs compute, written once, index by index, over the extended reals.

  Nodes of two kinds, 12288 each, carry feature rows `x`, `y` (64 wide); an edge list (393216 edges) gives
  for every edge a row word, a column word and a weight. The score of a pair is the scaled inner product
  `(∑ₖ x[r,k]·y[c,k]) / 8`; a column's shift is the largest score in that column over all rows. An edge's
  weight is `exp` of (its score less its column's shift) times its edge value. For a column `c` the result
  row is the weighted mean, over the edges whose column word is `c`, of the hidden rows the edges name,
  plus the parent row; a column no edge names divides by one.

  A feature row is looked up by an edge word after normalisation (a negative word counts from the end) and
  clipping into the table; an edge belongs to column `c` only if its column word IS `c`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A 12288 × 64 table of extended reals. -/
abbrev Mat := (⟨2, ![12288, 64]⟩ : Shape).Idx → EReal
/-- One extended real per edge. -/
abbrev Vals := (⟨1, ![393216]⟩ : Shape).Idx → EReal
/-- One 32-bit word per edge. -/
abbrev Words := (⟨1, ![393216]⟩ : Shape).Idx → BitVec 32

/-- A negative word counts from the end of the 12288 rows. -/
def nrm (v : BitVec 32) : BitVec 32 := if BitVec.ofBool (v.slt 0#32) = 1#1 then v + 12288#32 else v

/-- The row a word looks up: normalised, read signed, clipped into the table. -/
def pos (v : BitVec 32) : Fin 12288 := ⟨min (nrm v).toInt.toNat (12288 - 1), by omega⟩

/-- The scale `1/8 = 1/√64`. -/
def eighth : EReal := ((1 / 8 : ℝ) : EReal)

/-- The scaled inner product of row `r` of `x` and row `c` of `y`. -/
def score (x y : Mat) (r c : Fin 12288) : EReal := (∑ k : Fin 64, x (ix2 r k) * y (ix2 c k)) * eighth

/-- The largest score of column `c` over all rows. -/
def colMax (x y : Mat) (c : Fin 12288) : EReal := Finset.univ.sup fun r : Fin 12288 => score x y r c

/-- The edges whose column word is `c`. -/
def hit (cols : Words) (c : Fin 12288) : Finset (Fin 393216) :=
  Finset.univ.filter fun e : Fin 393216 => cols (ix1 e) = BitVec.ofNat 32 c.val

/-- Edge `e`'s score less its column's largest score. -/
def shift (x y : Mat) (rows cols : Words) (e : Fin 393216) : EReal :=
  score x y (pos (rows (ix1 e))) (pos (cols (ix1 e))) - colMax x y (pos (cols (ix1 e)))

/-- Edge `e`'s weight with the shift capped at zero. -/
def wCap (x y : Mat) (vals : Vals) (rows cols : Words) (e : Fin 393216) : EReal :=
  Ideal.exp (min (shift x y rows cols e) 0 * vals (ix1 e))

/-- Edge `e`'s weight with the shift as it is. -/
def wRaw (x y : Mat) (vals : Vals) (rows cols : Words) (e : Fin 393216) : EReal :=
  Ideal.exp (shift x y rows cols e * vals (ix1 e))

open Classical in
/-- A zero total is replaced by one. -/
def oneIfZero (d : EReal) : EReal := if d = 0 then 1 else d

/-- Sum the weighted hidden rows of a column's edges, then divide by the column's total weight. -/
def sumThenDivide (x y h p : Mat) (vals : Vals) (rows cols : Words) (c : Fin 12288) (k : Fin 64) : EReal :=
  Ideal.div (∑ e ∈ hit cols c, wCap x y vals rows cols e * h (ix2 (pos (rows (ix1 e))) k))
      (oneIfZero (∑ e ∈ hit cols c, wCap x y vals rows cols e))
    + p (ix2 c k)

/-- Divide each edge's weight by the total weight of the column its word looks up, then sum the weighted hidden rows. -/
def divideThenSum (x y h p : Mat) (vals : Vals) (rows cols : Words) (c : Fin 12288) (k : Fin 64) : EReal :=
  (∑ e ∈ hit cols c,
      Ideal.div (wRaw x y vals rows cols e) (oneIfZero (∑ e' ∈ hit cols (pos (cols (ix1 e))), wRaw x y vals rows cols e'))
        * h (ix2 (pos (rows (ix1 e))) k))
    + p (ix2 c k)

/-- Every entry of a table is a real number. -/
def FiniteMat (a : Mat) : Prop := ∀ i, ∃ r : ℝ, a i = (r : EReal)
/-- Every edge value is a real number. -/
def FiniteVals (v : Vals) : Prop := ∀ i, ∃ r : ℝ, v i = (r : EReal)

/-! ## The literals the two programs spell -/

theorem ofBits_eighth : Ideal.ofBits .f32 0x3E000000#32 = eighth := by
  unfold eighth
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero_bf16 : Ideal.ofBits .bf16 0x0000#16 = 0 := by
  simp [Ideal.ofBits, Ideal.ieee]

/-- Dividing by `√64` is multiplying by `1/8`, on every extended real. -/
theorem div_sqrt_sixtyfour (v : EReal) : Ideal.div v (Ideal.sqrt ((64 : ℝ) : EReal)) = v * eighth := by
  have h8 : Real.sqrt 64 = 8 := by
    rw [show (64 : ℝ) = 8 ^ 2 by norm_num]; exact Real.sqrt_sq (by norm_num)
  have : Ideal.sqrt ((64 : ℝ) : EReal) = ((8 : ℝ) : EReal) := by
    show (if (64 : ℝ) < 0 then ⊥ else (Real.sqrt 64 : EReal)) = _
    rw [if_neg (by norm_num), h8]
  rw [this, Ideal.div_coe (by norm_num : (8 : ℝ) ≠ 0)]
  rfl

/-- A column word is `c` exactly when, read signed, it is the number `c`. -/
theorem word_eq_iff (v : BitVec 32) (c : Fin 12288) : v = BitVec.ofNat 32 c.val ↔ v.toInt = (c.val : ℤ) := by
  have hc : c.val < 12288 := c.isLt
  constructor
  · rintro rfl
    rw [BitVec.toInt_eq_msb_cond, BitVec.msb_eq_false_iff_two_mul_lt.mpr (by simp [BitVec.toNat_ofNat]; omega)]
    simp [BitVec.toNat_ofNat]; omega
  · intro h
    apply BitVec.eq_of_toInt_eq
    rw [h, BitVec.toInt_eq_msb_cond, BitVec.msb_eq_false_iff_two_mul_lt.mpr (by simp [BitVec.toNat_ofNat]; omega)]
    simp [BitVec.toNat_ofNat]; omega

/-- A word that is the number `c` looks up row `c`. -/
theorem pos_of_word (c : Fin 12288) : pos (BitVec.ofNat 32 c.val) = c := by
  have hc : c.val < 12288 := c.isLt
  have ht : (BitVec.ofNat 32 c.val).toInt = (c.val : ℤ) := (word_eq_iff _ c).mp rfl
  have hn : nrm (BitVec.ofNat 32 c.val) = BitVec.ofNat 32 c.val := by
    unfold nrm
    rw [if_neg]
    simp only [BitVec.slt, ht, BitVec.toInt_zero]
    have : ¬ ((c.val : ℤ) < 0) := by omega
    simp [this]
  apply Fin.ext
  show min (nrm (BitVec.ofNat 32 c.val)).toInt.toNat (12288 - 1) = c.val
  rw [hn, ht]
  omega

end Cert.Spec

end
-- ==== Proof.KSpec.lean ====
/-
  The second kernel's arithmetic, as one function of its three edge arrays.

  The 393216 edges are cut into two halves of 384 tiles of 512 edges. For every edge the kernel forms a row of
  128 numbers: its weight `exp s` times its 64 hidden features, then the weight itself, then 63 zeros. A half's
  accumulator at column `c` adds the rows of the half's edges whose column word is `c`.
-/
import proofs.«417629_j27702539059750_3_alg».proof.Proof.Spec

noncomputable section

open scoped BigOperators

namespace Cert.KSpec

open Idealize.ShloMosaic Idealize.ShloMosaic.ValueIdx

/-- The edge at position `q` of tile `t` of half `g`. -/
def edgeOf (g : Fin 2) (t : Fin 384) (q : Fin 512) : Fin 393216 :=
  ⟨(g.val * 384 + t.val) * 512 + q.val, by have := g.isLt; have := t.isLt; have := q.isLt; omega⟩

/-- Edge `e`'s row of 128 numbers: weight × hidden features, the weight, zeros. -/
def contrib (hg : (⟨2, ![393216, 64]⟩ : Shape).Idx → EReal) (se : (⟨2, ![393216, 1]⟩ : Shape).Idx → EReal)
    (e : Fin 393216) (j : Fin 128) : EReal :=
  if h : j.val < 64 then Ideal.exp (se (ix2 e (0 : Fin 1))) * hg (ix2 e ⟨j.val, h⟩)
  else if j.val = 64 then Ideal.exp (se (ix2 e (0 : Fin 1))) else 0

/-- Half `g`'s accumulator at column `c`, lane `j`: the rows of the half's edges whose column word is `c`, added. -/
def scat (hg : (⟨2, ![393216, 64]⟩ : Shape).Idx → EReal) (se : (⟨2, ![393216, 1]⟩ : Shape).Idx → EReal)
    (cols : (⟨2, ![393216, 1]⟩ : Shape).Idx → BitVec 32) (g : Fin 2) (c : Fin 12288) (j : Fin 128) : EReal :=
  ∑ t : Fin 384, ∑ q : Fin 512,
    if cols (ix2 (edgeOf g t q) (0 : Fin 1)) = BitVec.ofNat 32 c.val then contrib hg se (edgeOf g t q) j else 0

end Cert.KSpec

end
-- ==== Proof.Region1.lean ====
/-
  The second kernel: each half of the edge list sweeps its 384 tiles of 512 edges, adding into its resident
  12288 × 128 accumulator (zeroed on the first tile) the tile's rows routed to their columns: the product of the
  tile's column indicator (edge × column, one where the edge's column word is the column) with the tile's
  128-wide rows, contracted over the edges.
-/
import proofs.«417629_j27702539059750_3_alg».proof.Proof.Gen.KernelIdeal.Frame
import proofs.«417629_j27702539059750_3_alg».proof.Proof.Spec
import proofs.«417629_j27702539059750_3_alg».proof.Proof.KSpec
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem r1_hz3 : (![0, 0, 0] : Fin 3 → Nat) = fun _ => 0 := funext fun a => by fin_cases a <;> rfl
theorem r1_hz2 : (![0, 0] : Fin 2 → Nat) = fun _ => 0 := funext fun a => by fin_cases a <;> rfl

section Pieces
variable {F : FTy → Type} [FloatOps F]

/-- A tile that is not a half's first leaves, in the accumulator holding `xo`, the update of `xo` by the tile. -/
theorem r1_out_B (c : Dev nD) (i : grid1.Coords) (a2 : Memref sig .tc .vmem S512x64 .f32) (h2 : a2.IsWhole)
    (a3 : Memref sig .tc .vmem S512x1 .f32) (h3 : a3.IsWhole) (a4 : Memref sig .tc .vmem S512x1 .i32) (h4 : a4.IsWhole)
    (a5 : Memref sig .tc .vmem S1x12288x128 .f32) (h5 : a5.IsWhole) (hc : ¬cond1_0 i)
    (x0 : Vec F S512x64 .f32) (x1 : Vec F S512x1 .f32) (x2 : Vec F S512x1 .i32) (xo : Vec F S1x12288x128 .f32) :
    out1_B_3 c i a2 h2 a3 h3 a4 h4 a5 h5 hc x0 x1 x2 xo = k1_pay2 x1 x0 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero r1_hz3]
  simp only [View.readAt_eq_ld, h2.read_unread, h3.read_unread, h4.read_unread, h5.read_unread,
    View.ld_unit_zero (S := S512x64) r1_hz2, View.ld_unit_zero (S := S512x1) r1_hz2, View.ld_unit_zero (S := S1x12288x128) r1_hz3]

/-- A half's first tile stores the zero block, reads it back, and leaves the update of the zero block by the tile. -/
theorem r1_out_A (c : Dev nD) (i : grid1.Coords) (a2 : Memref sig .tc .vmem S512x64 .f32) (h2 : a2.IsWhole)
    (a3 : Memref sig .tc .vmem S512x1 .f32) (h3 : a3.IsWhole) (a4 : Memref sig .tc .vmem S512x1 .i32) (h4 : a4.IsWhole)
    (a5 : Memref sig .tc .vmem S1x12288x128 .f32) (h5 : a5.IsWhole) (hc : cond1_0 i)
    (x0 : Vec F S512x64 .f32) (x1 : Vec F S512x1 .f32) (x2 : Vec F S512x1 .i32) :
    out1_A_3 c i a2 h2 a3 h3 a4 h4 a5 h5 hc x0 x1 x2 = k1_pay2 x1 x0 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x12288x128) r1_hz3, View.readCov_unit_zero (S := S1x12288x128) _ r1_hz3]
  simp only [View.readAt_eq_ld, h2.read_unread, h3.read_unread, h4.read_unread,
    View.ld_unit_zero (S := S512x64) r1_hz2, View.ld_unit_zero (S := S512x1) r1_hz2]
end Pieces

section Payload

/-- The tile's column indicator as the kernel builds it: one where the lane's number is the edge's column word. -/
def r1_indV {F : FTy → Type} [FloatOps F] (v14 : Vec F S512x1 .i32) : FVec F S512x12288 .bf16 :=
  truncf .bf16 (sitofp .f32 (extui 32 (cmpi .eq
    (broadcastTo S512x12288 (iota .tc S1x12288 32 [1] iota_S1x12288_d1_w32) broadcasts_S1x12288_S512x12288)
    (broadcastTo S512x12288 (shapeCast S512x1 v14 shapeCasts_S512x1_S512x1) broadcasts_S512x1_S512x12288)) natLt_1_32)) bitsLt_bf16_f32

/-- The first 64 lanes of the tile's rows: weight times features. -/
def r1_rowP0 {F : FTy → Type} [FloatOps F] (v3 : Vec F S512x1 .f32) (v6 : Vec F S512x64 .f32) : FVec F S512x64 .bf16 :=
  truncf .bf16 (mulf (broadcastTo S512x64 (exp (shapeCast S512x1 v3 shapeCasts_S512x1_S512x1)) broadcasts_S512x1_S512x64)
    (shapeCast S512x64 v6 shapeCasts_S512x64_S512x64)) bitsLt_bf16_f32
/-- Lane 64: the weight. -/
def r1_rowP1 {F : FTy → Type} [FloatOps F] (v3 : Vec F S512x1 .f32) : FVec F S512x1 .bf16 :=
  truncf .bf16 (exp (shapeCast S512x1 v3 shapeCasts_S512x1_S512x1)) bitsLt_bf16_f32
/-- The last 63 lanes: zeros. -/
def r1_rowP2 {F : FTy → Type} [FloatOps F] : FVec F S512x63 .bf16 := broadcast S512x63 (Scalar.ofBits .bf16 0x0000#16)

/-- The tile's 128-wide rows as the kernel builds them: the three pieces side by side. -/
def r1_rowV {F : FTy → Type} [FloatOps F] (v3 : Vec F S512x1 .f32) (v6 : Vec F S512x64 .f32) : FVec F S512x128 .bf16 :=
  concatenate S512x128 1 [⟨S512x64, r1_rowP0 v3 v6⟩, ⟨S512x1, r1_rowP1 v3⟩, ⟨S512x63, r1_rowP2⟩] concatenates_S512x64_S512x1_S512x63_S512x128_d1

/-- The update is the accumulator plus the product of the indicator and the rows, contracted over the edges. -/
theorem r1_pay2_eq {F : FTy → Type} [FloatOps F] (v3 : Vec F S512x1 .f32) (v6 : Vec F S512x64 .f32) (v14 : Vec F S512x1 .i32)
    (v24 : Vec F S1x12288x128 .f32) :
    k1_pay2 v3 v6 v14 v24
      = shapeCast S1x12288x128 (addf (shapeCast S12288x128 v24 shapeCasts_S1x12288x128_S12288x128)
          (matmul dot_S512x12288_S512x128_S12288x128_0_0_1_1_n_n none (r1_indV v14) (r1_rowV v3 v6)
            (constant S12288x128 .f32 0x00000000#32))) shapeCasts_S12288x128_S1x12288x128 := rfl

theorem r1_lhs_mm_0 (i : S12288x128.Idx) (q : dot_S512x12288_S512x128_S12288x128_0_0_1_1_n_n.contr.Idx) :
    (dot_S512x12288_S512x128_S12288x128_0_0_1_1_n_n.lhsIdx i q 0).val = (q ⟨0, by decide⟩).val :=
  dot_S512x12288_S512x128_S12288x128_0_0_1_1_n_n.lhsIdx_val_of_single rfl i q
theorem r1_lhs_mm_1 (i : S12288x128.Idx) (q : dot_S512x12288_S512x128_S12288x128_0_0_1_1_n_n.contr.Idx) :
    (dot_S512x12288_S512x128_S12288x128_0_0_1_1_n_n.lhsIdx i q 1).val = (i 0).val := by
  unfold DotDims.lhsIdx
  rw [dif_neg (show ¬(1 : Fin S512x12288.rank) ∈ dot_S512x12288_S512x128_S12288x128_0_0_1_1_n_n.lhsBatch by decide), dif_pos (show (1 : Fin S512x12288.rank) ∈ dot_S512x12288_S512x128_S12288x128_0_0_1_1_n_n.lhsNonContracting by decide)]
  rfl
theorem r1_rhs_mm_0 (i : S12288x128.Idx) (q : dot_S512x12288_S512x128_S12288x128_0_0_1_1_n_n.contr.Idx) :
    (dot_S512x12288_S512x128_S12288x128_0_0_1_1_n_n.rhsIdx i q 0).val = (q ⟨0, by decide⟩).val :=
  dot_S512x12288_S512x128_S12288x128_0_0_1_1_n_n.rhsIdx_val_of_single rfl i q
theorem r1_rhs_mm_1 (i : S12288x128.Idx) (q : dot_S512x12288_S512x128_S12288x128_0_0_1_1_n_n.contr.Idx) :
    (dot_S512x12288_S512x128_S12288x128_0_0_1_1_n_n.rhsIdx i q 1).val = (i 1).val := by
  unfold DotDims.rhsIdx
  rw [dif_neg (show ¬(1 : Fin S512x128.rank) ∈ dot_S512x12288_S512x128_S12288x128_0_0_1_1_n_n.rhsBatch by decide), dif_pos (show (1 : Fin S512x128.rank) ∈ dot_S512x12288_S512x128_S12288x128_0_0_1_1_n_n.rhsNonContracting by decide)]
  rfl

/-- The product into the zero block at column `c`, lane `j`: the sum over the tile's edges of indicator times row. -/
theorem r1_mm_apply (A : FVec Ideal S512x12288 .bf16) (B : FVec Ideal S512x128 .bf16) (c : Fin 12288) (j : Fin 128) :
    matmul dot_S512x12288_S512x128_S12288x128_0_0_1_1_n_n none A B (constant (F := Ideal) S12288x128 .f32 0x00000000#32) (ix2 c j)
      = ∑ q : Fin 512, A (ix2 q c) * B (ix2 q j) := by
  simp only [matmul]
  rw [Ideal.matmul_constant_zero_apply, ← Equiv.sum_comp (contrEquiv1 dot_S512x12288_S512x128_S12288x128_0_0_1_1_n_n 512 rfl rfl).symm]
  refine Finset.sum_congr rfl fun k _ => ?_
  have hk := contrEquiv1_symm_val dot_S512x12288_S512x128_S12288x128_0_0_1_1_n_n 512 rfl rfl k
  have el : dot_S512x12288_S512x128_S12288x128_0_0_1_1_n_n.lhsIdx (ix2 c j) ((contrEquiv1 dot_S512x12288_S512x128_S12288x128_0_0_1_1_n_n 512 rfl rfl).symm k) = ix2 k c := funext fun a => Fin.ext (by
    match a with
    | ⟨0, _⟩ => exact (r1_lhs_mm_0 _ _).trans hk
    | ⟨1, _⟩ => exact r1_lhs_mm_1 _ _)
  have er : dot_S512x12288_S512x128_S12288x128_0_0_1_1_n_n.rhsIdx (ix2 c j) ((contrEquiv1 dot_S512x12288_S512x128_S12288x128_0_0_1_1_n_n 512 rfl rfl).symm k) = ix2 k j := funext fun a => Fin.ext (by
    match a with
    | ⟨0, _⟩ => exact (r1_rhs_mm_0 _ _).trans hk
    | ⟨1, _⟩ => exact r1_rhs_mm_1 _ _)
  rw [el, er]

/-- The indicator at edge `q`, column `c`: one if the edge's column word is `c`, else zero. -/
theorem r1_ind_apply (v14 : Vec Ideal S512x1 .i32) (q : Fin 512) (c : Fin 12288) :
    r1_indV (F := Ideal) v14 (ix2 q c) = if v14 (ix2 q (0 : Fin 1)) = BitVec.ofNat 32 c.val then 1 else 0 := by
  unfold r1_indV
  show ((((IntOp.cmpi .eq
      (broadcastTo S512x12288 (iota .tc S1x12288 32 [1] iota_S1x12288_d1_w32) broadcasts_S1x12288_S512x12288 (ix2 q c))
      (broadcastTo S512x12288 (shapeCast S512x1 v14 shapeCasts_S512x1_S512x1) broadcasts_S512x1_S512x12288 (ix2 q c))).setWidth 32).toInt : ℝ) : EReal) = _
  rw [broadcastTo_apply _ broadcasts_S1x12288_S512x12288 (ix2 q c) (ix2 (0 : Fin 1) c) (fun a => match a with
      | ⟨0, _⟩ => rfl
      | ⟨1, _⟩ => rfl),
    broadcastTo_apply _ broadcasts_S512x1_S512x12288 (ix2 q c) (ix2 q (0 : Fin 1)) (fun a => match a with
      | ⟨0, _⟩ => rfl
      | ⟨1, _⟩ => rfl),
    iota_single_apply, shapeCast_self]
  show ((((IntOp.cmpi .eq (BitVec.ofNat 32 c.val) (v14 (ix2 q (0 : Fin 1)))).setWidth 32).toInt : ℝ) : EReal) = _
  by_cases h : v14 (ix2 q (0 : Fin 1)) = BitVec.ofNat 32 c.val
  · rw [if_pos h, StableHlo.Predicate.cmpi_eq_iff.mpr h.symm]
    norm_num
  · rw [if_neg h, eq_zero_of_ne_one (fun h1 => h (StableHlo.Predicate.cmpi_eq_iff.mp h1).symm)]
    norm_num

theorem r1_rowP0_apply (v3 : Vec Ideal S512x1 .f32) (v6 : Vec Ideal S512x64 .f32) (q : Fin 512) (k : Fin 64) :
    r1_rowP0 (F := Ideal) v3 v6 (ix2 q k) = Ideal.exp (v3 (ix2 q (0 : Fin 1))) * v6 (ix2 q k) := by
  unfold r1_rowP0
  rw [truncf_apply, mulf_apply, broadcastTo_apply _ broadcasts_S512x1_S512x64 (ix2 q k) (ix2 q (0 : Fin 1)) (fun a => match a with
      | ⟨0, _⟩ => rfl
      | ⟨1, _⟩ => rfl), shapeCast_self, shapeCast_self]
  rfl

theorem r1_rowP1_apply (v3 : Vec Ideal S512x1 .f32) (q : Fin 512) :
    r1_rowP1 (F := Ideal) v3 (ix2 q (0 : Fin 1)) = Ideal.exp (v3 (ix2 q (0 : Fin 1))) := by
  unfold r1_rowP1
  rw [truncf_apply, shapeCast_self]
  rfl

/-- Edge `q`'s row at lane `j`, in the tile's own blocks: weight times feature, the weight, zero. -/
def r1_rowAt (v3 : Vec Ideal S512x1 .f32) (v6 : Vec Ideal S512x64 .f32) (q : Fin 512) (j : Fin 128) : EReal :=
  if h : j.val < 64 then Ideal.exp (v3 (ix2 q (0 : Fin 1))) * v6 (ix2 q ⟨j.val, h⟩)
  else if j.val = 64 then Ideal.exp (v3 (ix2 q (0 : Fin 1))) else 0

/-- The three pieces laid side by side, read at edge `q`, lane `j`. -/
theorem r1_row_apply (v3 : Vec Ideal S512x1 .f32) (v6 : Vec Ideal S512x64 .f32) (q : Fin 512) (j : Fin 128) :
    r1_rowV (F := Ideal) v3 v6 (ix2 q j) = r1_rowAt v3 v6 q j := by
  unfold r1_rowV r1_rowAt
  by_cases h : j.val < 64
  · rw [dif_pos h]
    refine (concatenate_apply_piece (1 : Fin S512x128.rank)
      [⟨S512x64, r1_rowP0 (F := Ideal) v3 v6⟩, ⟨S512x1, r1_rowP1 (F := Ideal) v3⟩, ⟨S512x63, r1_rowP2 (F := Ideal)⟩]
      concatenates_S512x64_S512x1_S512x63_S512x128_d1 (ix2 q j)
      0 (Nat.zero_lt_succ _) S512x64 (r1_rowP0 (F := Ideal) v3 v6) rfl rfl 0 rfl (ix2 q (⟨j.val, h⟩ : Fin 64)) (fun b hb => ?_) ?_).trans ?_
    · match b with
      | ⟨0, _⟩ => rfl
      | ⟨1, _⟩ => exact absurd rfl hb
    · exact Nat.zero_add _
    · exact r1_rowP0_apply v3 v6 q ⟨j.val, h⟩
  · rw [dif_neg h]
    by_cases h64 : j.val = 64
    · rw [if_pos h64]
      refine (concatenate_apply_piece (1 : Fin S512x128.rank)
        [⟨S512x64, r1_rowP0 (F := Ideal) v3 v6⟩, ⟨S512x1, r1_rowP1 (F := Ideal) v3⟩, ⟨S512x63, r1_rowP2 (F := Ideal)⟩]
        concatenates_S512x64_S512x1_S512x63_S512x128_d1 (ix2 q j)
        1 (Nat.succ_lt_succ (Nat.zero_lt_succ _)) S512x1 (r1_rowP1 (F := Ideal) v3) rfl rfl 64 rfl (ix2 q (0 : Fin 1)) (fun b hb => ?_) ?_).trans ?_
      · match b with
        | ⟨0, _⟩ => rfl
        | ⟨1, _⟩ => exact absurd rfl hb
      · show 64 + 0 = j.val
        omega
      · exact r1_rowP1_apply v3 q
    · rw [if_neg h64]
      have hj : j.val - 65 < 63 := by have := j.isLt; omega
      refine (concatenate_apply_piece (1 : Fin S512x128.rank)
        [⟨S512x64, r1_rowP0 (F := Ideal) v3 v6⟩, ⟨S512x1, r1_rowP1 (F := Ideal) v3⟩, ⟨S512x63, r1_rowP2 (F := Ideal)⟩]
        concatenates_S512x64_S512x1_S512x63_S512x128_d1 (ix2 q j)
        2 (Nat.succ_lt_succ (Nat.succ_lt_succ (Nat.zero_lt_succ _))) S512x63 (r1_rowP2 (F := Ideal)) rfl rfl 65 rfl (ix2 q (⟨j.val - 65, hj⟩ : Fin 63)) (fun b hb => ?_) ?_).trans ?_
      · match b with
        | ⟨0, _⟩ => rfl
        | ⟨1, _⟩ => exact absurd rfl hb
      · show 65 + (j.val - 65) = j.val
        omega
      · exact Cert.Spec.ofBits_zero_bf16

/-- The update at column `c`, lane `j`: the accumulator there plus the rows of the tile's edges whose column word is `c`. -/
theorem r1_pay2_apply (v3 : Vec Ideal S512x1 .f32) (v6 : Vec Ideal S512x64 .f32) (v14 : Vec Ideal S512x1 .i32)
    (v24 : Vec Ideal S1x12288x128 .f32) (c : Fin 12288) (j : Fin 128) :
    k1_pay2 (F := Ideal) v3 v6 v14 v24 (ix3 (0 : Fin 1) c j)
      = v24 (ix3 (0 : Fin 1) c j)
        + ∑ q : Fin 512, (if v14 (ix2 q (0 : Fin 1)) = BitVec.ofNat 32 c.val then r1_rowAt v3 v6 q j else 0) := by
  rw [r1_pay2_eq]
  refine (shapeCast_addUnit_apply ![12288, 128] _ shapeCasts_S12288x128_S1x12288x128 (ix3 (0 : Fin 1) c j)).trans ?_
  have e1 : (fun a : Fin 2 => ix3 (0 : Fin 1) c j a.succ) = ix2 c j :=
    funext fun a => match a with | ⟨0, _⟩ => rfl | ⟨1, _⟩ => rfl
  rw [e1, addf_apply, r1_mm_apply]
  refine congrArg₂ (· + ·) ?_ (Finset.sum_congr rfl fun q _ => ?_)
  · refine (shapeCast_dropUnit_apply ![12288, 128] v24 shapeCasts_S1x12288x128_S12288x128 (ix2 c j)).trans ?_
    exact congrArg v24 (funext fun a => match a with | ⟨0, _⟩ => rfl | ⟨1, _⟩ => rfl | ⟨2, _⟩ => rfl)
  · rw [r1_ind_apply, r1_row_apply]
    by_cases h : v14 (ix2 q (0 : Fin 1)) = BitVec.ofNat 32 c.val
    · rw [if_pos h, if_pos h, one_mul]
    · rw [if_neg h, if_neg h, zero_mul]

end Payload

variable (V : (c : Dev nD) → (b : Ref sig .tc) → Buf (Elt Ideal) ((c : Thread nD τ).loc b))

/-- The zero block reads zero. -/
theorem r1_pay1_apply (i : S1x12288x128.Idx) : k1_pay1 (F := Ideal) i = 0 := by
  unfold k1_pay1
  exact Ideal.ofBits_zero_f32

/-- The three input blocks of a tile and the three edge arrays, at their literal types. -/
abbrev r1_hblk (c : Dev nD) (t : Fin cfg1.N) : Vec Ideal S512x64 .f32 := iblk1 (F := Ideal) V c 0 t
abbrev r1_sblk (c : Dev nD) (t : Fin cfg1.N) : Vec Ideal S512x1 .f32 := iblk1 (F := Ideal) V c 1 t
abbrev r1_cblk (c : Dev nD) (t : Fin cfg1.N) : Vec Ideal S512x1 .i32 := iblk1 (F := Ideal) V c 2 t
abbrev r1_harr (c : Dev nD) : (⟨2, ![393216, 64]⟩ : Shape).Idx → EReal := V c main_v24
abbrev r1_sarr (c : Dev nD) : (⟨2, ![393216, 1]⟩ : Shape).Idx → EReal := V c main_v40
abbrev r1_carr (c : Dev nD) : (⟨2, ![393216, 1]⟩ : Shape).Idx → BitVec 32 := V c main_v41

/-- The index maps over the grid: an input block's index is the tile's number; the accumulator's is the half. -/
theorem r1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = t.val / 384 ∧ win1_3.index t (1 : Fin 3) = 0 ∧ win1_3.index t (2 : Fin 3) = 0 :=
  (by decide +kernel : ∀ t : Fin grid1.N, _)

/-- The edge at position `q` of tile `n` (tiles numbered through both halves). -/
def r1_edge (n : ℕ) (hn : n < 768) (q : Fin 512) : Fin 393216 := ⟨n * 512 + q.val, by have := q.isLt; omega⟩

theorem r1_hblk_apply (c : Dev nD) (t : Fin cfg1.N) (hn : t.val < 768) (q : Fin 512) (k : Fin 64) :
    r1_hblk V c t (ix2 q k) = r1_harr V c (ix2 (r1_edge t.val hn q) k) := by
  obtain ⟨e0, e1, -⟩ := r1_idx_facts t
  unfold r1_hblk iblk1
  rw [View.read_apply]
  show V c main_v24 _ = V c main_v24 _
  congr 1
  funext a
  apply Fin.ext
  match a with
  | ⟨0, _⟩ => show win1_0.index t (0 : Fin 2) * 512 + 1 * q.val = t.val * 512 + q.val; rw [e0]; omega
  | ⟨1, _⟩ => show win1_0.index t (1 : Fin 2) * 64 + 1 * k.val = k.val; rw [e1]; omega

theorem r1_sblk_apply (c : Dev nD) (t : Fin cfg1.N) (hn : t.val < 768) (q : Fin 512) :
    r1_sblk V c t (ix2 q (0 : Fin 1)) = r1_sarr V c (ix2 (r1_edge t.val hn q) (0 : Fin 1)) := by
  obtain ⟨-, -, e0, e1, -⟩ := r1_idx_facts t
  unfold r1_sblk iblk1
  rw [View.read_apply]
  show V c main_v40 _ = V c main_v40 _
  congr 1
  funext a
  apply Fin.ext
  match a with
  | ⟨0, _⟩ => show win1_1.index t (0 : Fin 2) * 512 + 1 * q.val = t.val * 512 + q.val; rw [e0]; omega
  | ⟨1, _⟩ => show win1_1.index t (1 : Fin 2) * 1 + 1 * 0 = 0; rw [e1]

theorem r1_cblk_apply (c : Dev nD) (t : Fin cfg1.N) (hn : t.val < 768) (q : Fin 512) :
    r1_cblk V c t (ix2 q (0 : Fin 1)) = r1_carr V c (ix2 (r1_edge t.val hn q) (0 : Fin 1)) := by
  obtain ⟨-, -, -, -, e0, e1, -⟩ := r1_idx_facts t
  unfold r1_cblk iblk1
  rw [View.read_apply]
  show V c main_v41 _ = V c main_v41 _
  congr 1
  funext a
  apply Fin.ext
  match a with
  | ⟨0, _⟩ => show win1_2.index t (0 : Fin 2) * 512 + 1 * q.val = t.val * 512 + q.val; rw [e0]; omega
  | ⟨1, _⟩ => show win1_2.index t (1 : Fin 2) * 1 + 1 * 0 = 0; rw [e1]

/-- The rows of tile `n`'s edges routed to column `col`, lane `j`, over the edge arrays; nothing past the last tile. -/
def r1_tile (hg : (⟨2, ![393216, 64]⟩ : Shape).Idx → EReal) (se : (⟨2, ![393216, 1]⟩ : Shape).Idx → EReal)
    (cols : (⟨2, ![393216, 1]⟩ : Shape).Idx → BitVec 32) (n : ℕ) (col : Fin 12288) (j : Fin 128) : EReal :=
  if hn : n < 768 then
    ∑ q : Fin 512, (if cols (ix2 (r1_edge n hn q) (0 : Fin 1)) = BitVec.ofNat 32 col.val
      then Cert.KSpec.contrib hg se (r1_edge n hn q) j else 0)
  else 0

/-- A tile's routed rows, read in its blocks, are its routed rows read in the arrays. -/
theorem r1_tile_blocks (c : Dev nD) (t : Fin cfg1.N) (col : Fin 12288) (j : Fin 128) :
    (∑ q : Fin 512, (if r1_cblk V c t (ix2 q (0 : Fin 1)) = BitVec.ofNat 32 col.val
        then r1_rowAt (r1_sblk V c t) (r1_hblk V c t) q j else 0))
      = r1_tile (r1_harr V c) (r1_sarr V c) (r1_carr V c) t.val col j := by
  have hn : t.val < 768 := lt_of_lt_of_eq t.isLt (show cfg1.N = 768 from N_1)
  unfold r1_tile
  rw [dif_pos hn]
  refine Finset.sum_congr rfl fun q _ => ?_
  rw [r1_cblk_apply V c t hn q]
  refine if_congr Iff.rfl ?_ rfl
  unfold r1_rowAt Cert.KSpec.contrib
  rw [r1_sblk_apply V c t hn q]
  by_cases h : j.val < 64
  · rw [dif_pos h, dif_pos h, r1_hblk_apply V c t hn q ⟨j.val, h⟩]
  · rw [dif_neg h, dif_neg h]

/-- A half's first tile leaves its own routed rows. -/
theorem r1_point_A (c : Dev nD) (t : Fin cfg1.N) (h0 : t.val % 384 = 0) (col : Fin 12288) (j : Fin 128) :
    outsAt1 (F := Ideal) V c t.val t.isLt (ix3 (0 : Fin 1) col j) = r1_tile (r1_harr V c) (r1_sarr V c) (r1_carr V c) t.val col j := by
  rw [outsAt1_A V c t h0]
  refine (congrFun (r1_out_A (F := Ideal) c (grid1.coords t) (ms1_0 t) (hs1_0 t) (ms1_1 t) (hs1_1 t) (ms1_2 t) (hs1_2 t)
    (ms1_3 t) (hs1_3 t) ((hcond1_0 t).mpr h0) (r1_hblk V c t) (r1_sblk V c t) (r1_cblk V c t)) (ix3 (0 : Fin 1) col j)).trans ?_
  rw [r1_pay2_apply, r1_pay1_apply, zero_add]
  exact r1_tile_blocks V c t col j

/-- Any other tile adds its routed rows to what the tile before left. -/
theorem r1_point_B (c : Dev nD) (t : Fin cfg1.N) (h0 : ¬t.val % 384 = 0) (col : Fin 12288) (j : Fin 128) :
    outsAt1 (F := Ideal) V c t.val t.isLt (ix3 (0 : Fin 1) col j)
      = outsAt1 (F := Ideal) V c (t.val - 1) (Nat.lt_of_le_of_lt (Nat.sub_le _ _) t.isLt) (ix3 (0 : Fin 1) col j)
        + r1_tile (r1_harr V c) (r1_sarr V c) (r1_carr V c) t.val col j := by
  rw [outsAt1_B V c t h0]
  refine (congrFun (r1_out_B (F := Ideal) c (grid1.coords t) (ms1_0 t) (hs1_0 t) (ms1_1 t) (hs1_1 t) (ms1_2 t) (hs1_2 t)
    (ms1_3 t) (hs1_3 t) (fun h => h0 ((hcond1_0 t).mp h)) (r1_hblk V c t) (r1_sblk V c t) (r1_cblk V c t)
    (outsAt1 (F := Ideal) V c (t.val - 1) (Nat.lt_of_le_of_lt (Nat.sub_le _ _) t.isLt))) (ix3 (0 : Fin 1) col j)).trans ?_
  rw [r1_pay2_apply]
  exact congrArg (_ + ·) (r1_tile_blocks V c t col j)

/-- After tile `n` the accumulator holds the routed rows of its half's tiles so far. -/
theorem r1_outs_eq (c : Dev nD) (col : Fin 12288) (j : Fin 128) : ∀ (n : ℕ) (h : n < cfg1.N),
    outsAt1 (F := Ideal) V c n h (ix3 (0 : Fin 1) col j)
      = ∑ m ∈ Finset.range (n % 384 + 1), r1_tile (r1_harr V c) (r1_sarr V c) (r1_carr V c) (n / 384 * 384 + m) col j
  | 0, h => by
    refine (r1_point_A V c ⟨0, h⟩ rfl col j).trans ?_
    show r1_tile (r1_harr V c) (r1_sarr V c) (r1_carr V c) 0 col j = _
    simp [Finset.sum_range_one]
  | n + 1, h => by
    by_cases h0 : (n + 1) % 384 = 0
    · refine (r1_point_A V c ⟨n + 1, h⟩ h0 col j).trans ?_
      show r1_tile (r1_harr V c) (r1_sarr V c) (r1_carr V c) (n + 1) col j = _
      have e : (n + 1) / 384 * 384 = n + 1 := by omega
      rw [h0, e, zero_add, Finset.sum_range_one, add_zero]
    · refine (r1_point_B V c ⟨n + 1, h⟩ h0 col j).trans ?_
      show outsAt1 (F := Ideal) V c n _ (ix3 (0 : Fin 1) col j) + r1_tile (r1_harr V c) (r1_sarr V c) (r1_carr V c) (n + 1) col j = _
      rw [r1_outs_eq c col j n]
      have e1 : (n + 1) % 384 = n % 384 + 1 := by omega
      have e2 : (n + 1) / 384 = n / 384 := by omega
      have e3 : n / 384 * 384 + (n % 384 + 1) = n + 1 := by omega
      rw [e1, e2, Finset.sum_range_succ _ (n % 384 + 1), e3]

/-- What the result array must end holding. -/
abbrev r1_G (c : Dev nD) : S2x12288x128.Idx → EReal :=
  fun i => Cert.KSpec.scat (V c main_v24) (V c main_v40) (V c main_v41) (i 0) (i 1) (i 2)

/-- After a half's last tile the accumulator holds all of the half's routed rows. -/
theorem r1_half_eq (c : Dev nD) (t : Fin cfg1.N) (h383 : t.val % 384 = 383) (g : Fin 2) (hg : g.val = t.val / 384)
    (col : Fin 12288) (j : Fin 128) :
    outsAt1 (F := Ideal) V c t.val t.isLt (ix3 (0 : Fin 1) col j)
      = Cert.KSpec.scat (r1_harr V c) (r1_sarr V c) (r1_carr V c) g col j := by
  have hN : t.val < 768 := lt_of_lt_of_eq t.isLt (show cfg1.N = 768 from N_1)
  rw [r1_outs_eq V c col j]
  have e1 : t.val % 384 + 1 = 384 := by omega
  have e2 : t.val / 384 * 384 = g.val * 384 := by omega
  rw [e1, e2]
  unfold Cert.KSpec.scat
  rw [Finset.sum_range]
  refine Finset.sum_congr rfl fun s _ => ?_
  unfold r1_tile
  have hs := s.isLt
  have hg2 := g.isLt
  rw [dif_pos (by omega : g.val * 384 + s.val < 768)]
  rfl

/-- The same at any index of the block, against any index of the array with the half as its first coordinate. -/
theorem r1_flush_point (c : Dev nD) (t : Fin cfg1.N) (h383 : t.val % 384 = 383) (y : S1x12288x128.Idx) (i : S2x12288x128.Idx)
    (hi0 : (i 0).val = t.val / 384) (hi1 : (i 1).val = (y 1).val) (hi2 : (i 2).val = (y 2).val) :
    outsAt1 (F := Ideal) V c t.val t.isLt y = r1_G V c i := by
  have h0 : (y 0).val < 1 := (y 0).isLt
  have hy : y = ix3 (0 : Fin 1) (y 1) (y 2) :=
    (eq_ix3 y).trans (congrArg (fun a => ix3 a (y 1) (y 2)) (Fin.ext (by show (y 0).val = 0; omega)))
  refine (congrArg (outsAt1 (F := Ideal) V c t.val t.isLt) hy).trans ?_
  refine (r1_half_eq V c t h383 (i 0) hi0 (y 1) (y 2)).trans ?_
  show Cert.KSpec.scat (V c main_v24) (V c main_v40) (V c main_v41) (i 0) (y 1) (y 2)
    = Cert.KSpec.scat (V c main_v24) (V c main_v40) (V c main_v41) (i 0) (i 1) (i 2)
  rw [show i 1 = y 1 from Fin.ext hi1, show i 2 = y 2 from Fin.ext hi2]

/-- What a half's last tile writes back is the half's block of the result. -/
theorem r1_flushed_eq (c : Dev nD) (t : Fin cfg1.N) (hf : (cfg1.win 3).flush t = true) :
    (dat1 (F := Ideal) V c).flushed 3 t = ((cfg1.win 3).blk t).view.read (Elt Ideal) (r1_G V c) := by
  have h383 : t.val % 384 = 383 := (flush1_3 t).mp hf
  obtain ⟨-, -, -, -, -, -, e0, e1, e2⟩ := r1_idx_facts t
  show (cfg1.win 3).cut (grid1.coords t) ((dat1 (F := Ideal) V c).after 3 t) = _
  rw [after1_3]
  funext y
  show outsAt1 (F := Ideal) V c t.val t.isLt y = r1_G V c (((cfg1.win 3).blk t).view.emb y)
  have h0 : (y 0).val < 1 := (y 0).isLt
  refine r1_flush_point V c t h383 y (((cfg1.win 3).blk t).view.emb y) ?_ ?_ ?_
  · show win1_3.index t (0 : Fin 3) * 1 + 1 * (y 0).val = t.val / 384
    rw [e0]; omega
  · show win1_3.index t (1 : Fin 3) * 12288 + 1 * (y 1).val = (y 1).val
    rw [e1]; omega
  · show win1_3.index t (2 : Fin 3) * 128 + 1 * (y 2).val = (y 2).val
    rw [e2]; omega

/-- Every index of the result is in the block its half's last tile writes back. -/
theorem r1_cover (c : Dev nD) (i : S2x12288x128.Idx) :
    ∃ t : Fin cfg1.N, (cfg1.win 3).flush t = true ∧ i ∈ ((cfg1.win 3).blk t).view.set := by
  have hi0 : (i 0).val < 2 := (i 0).isLt
  have hi1 : (i 1).val < 12288 := (i 1).isLt
  have hi2 : (i 2).val < 128 := (i 2).isLt
  obtain ⟨t, ht⟩ : ∃ t : Fin cfg1.N, t.val = (i 0).val * 384 + 383 :=
    ⟨⟨(i 0).val * 384 + 383, by rw [show cfg1.N = 768 from N_1]; omega⟩, rfl⟩
  obtain ⟨-, -, -, -, -, -, e0, e1, e2⟩ := r1_idx_facts t
  refine ⟨t, (flush1_3 t).mpr (by omega), ?_⟩
  show i ∈ ((View.whole main_v42).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    rw [e0]; omega
  | ⟨1, _⟩ =>
    show win1_3.index t (1 : Fin 3) * 12288 ≤ (i 1).val ∧ (i 1).val < win1_3.index t (1 : Fin 3) * 12288 + 12288
    rw [e1]; omega
  | ⟨2, _⟩ =>
    show win1_3.index t (2 : Fin 3) * 128 ≤ (i 2).val ∧ (i 2).val < win1_3.index t (2 : Fin 3) * 128 + 128
    rw [e2]; omega

/-- What the second kernel leaves in its result array: per half, column and lane, the routed rows added. -/
theorem region1_arr (c : Dev nD) :
    ((dat1 (F := Ideal) V c).arrAt 3 cfg1.N : S2x12288x128.Idx → EReal)
      = fun i => Cert.KSpec.scat (V c main_v24) (V c main_v40) (V c main_v41) (i 0) (i 1) (i 2) :=
  (dat1 (F := Ideal) V c).arrAt_eq_of_cover 3 (r1_G V c) (r1_flushed_eq V c) (r1_cover c)

end Cert.KernelIdeal.Hand

end
-- ==== Proof.Region0.lean ====
/-
  The first kernel: for every block of 1536 columns it sweeps the eight blocks of 1536 rows, keeping in its output
  block the running maximum of the scaled inner products, started at −∞ on the first row block. After the sweep
  the output column holds, for each column, the largest score over all 12288 rows.
-/
import proofs.«417629_j27702539059750_3_alg».proof.Proof.Gen.KernelIdeal.Frame
import proofs.«417629_j27702539059750_3_alg».proof.Proof.Spec
import proofs.«417629_j27702539059750_3_alg».proof.Proof.KSpec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem r0_hz2 : (![0, 0] : Fin 2 → Nat) = fun _ => 0 := funext fun a => by fin_cases a <;> rfl

/-! ## What each case of the body leaves in the output block -/

section Pieces
variable {G : FTy → Type} [FloatOps G]

/-- Away from the first row block the body leaves the running maximum of the block it found and the tile's scores. -/
private theorem r0_piece_B (c : Dev nD) (i : grid0.Coords) (a2 : Memref sig .tc .vmem S1536x64 .bf16) (h2 : a2.IsWhole)
    (a3 : Memref sig .tc .vmem S1536x64 .bf16) (h3 : a3.IsWhole) (a4 : Memref sig .tc .vmem S1536x1 .f32) (h4 : a4.IsWhole)
    (hc : ¬cond0_0 i) (x0 x1 : Vec G S1536x64 .bf16) (xo : Vec G S1536x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero r0_hz2]
  simp only [View.readAt_eq_ld, h2.read_unread, h3.read_unread, h4.read_unread, View.ld_unit_zero (S := S1536x64) r0_hz2,
    View.ld_unit_zero (S := S1536x1) r0_hz2]

/-- On the first row block the body first resets the block to −∞, then does the same. -/
private theorem r0_piece_A (c : Dev nD) (i : grid0.Coords) (a2 : Memref sig .tc .vmem S1536x64 .bf16) (h2 : a2.IsWhole)
    (a3 : Memref sig .tc .vmem S1536x64 .bf16) (h3 : a3.IsWhole) (a4 : Memref sig .tc .vmem S1536x1 .f32) (h4 : a4.IsWhole)
    (hc : cond0_0 i) (x0 x1 : Vec G S1536x64 .bf16) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1536x1) r0_hz2, View.readCov_unit_zero (S := S1536x1) _ r0_hz2]
  simp only [View.readAt_eq_ld, h2.read_unread, h3.read_unread, View.ld_unit_zero (S := S1536x64) r0_hz2,
    View.ld_unit_zero (S := S1536x1) r0_hz2]

end Pieces

/-! ## The body's arithmetic at one row of the output block -/

private theorem r0_mm_lhs_0 (j : S1536x1536.Idx) (q : dot_S1536x64_S1536x64_S1536x1536_1_1_0_0_n_n.contr.Idx) :
    (dot_S1536x64_S1536x64_S1536x1536_1_1_0_0_n_n.lhsIdx j q 0).val = (j 0).val := by
  unfold DotDims.lhsIdx
  rw [dif_neg (show ¬(0 : Fin S1536x64.rank) ∈ dot_S1536x64_S1536x64_S1536x1536_1_1_0_0_n_n.lhsBatch by decide), dif_pos (show (0 : Fin S1536x64.rank) ∈ dot_S1536x64_S1536x64_S1536x1536_1_1_0_0_n_n.lhsNonContracting by decide)]
  rfl
private theorem r0_mm_lhs_1 (j : S1536x1536.Idx) (q : dot_S1536x64_S1536x64_S1536x1536_1_1_0_0_n_n.contr.Idx) :
    (dot_S1536x64_S1536x64_S1536x1536_1_1_0_0_n_n.lhsIdx j q 1).val = (q ⟨0, by decide⟩).val :=
  dot_S1536x64_S1536x64_S1536x1536_1_1_0_0_n_n.lhsIdx_val_of_single rfl j q
private theorem r0_mm_rhs_0 (j : S1536x1536.Idx) (q : dot_S1536x64_S1536x64_S1536x1536_1_1_0_0_n_n.contr.Idx) :
    (dot_S1536x64_S1536x64_S1536x1536_1_1_0_0_n_n.rhsIdx j q 0).val = (j 1).val := by
  unfold DotDims.rhsIdx
  rw [dif_neg (show ¬(0 : Fin S1536x64.rank) ∈ dot_S1536x64_S1536x64_S1536x1536_1_1_0_0_n_n.rhsBatch by decide), dif_pos (show (0 : Fin S1536x64.rank) ∈ dot_S1536x64_S1536x64_S1536x1536_1_1_0_0_n_n.rhsNonContracting by decide)]
  rfl
private theorem r0_mm_rhs_1 (j : S1536x1536.Idx) (q : dot_S1536x64_S1536x64_S1536x1536_1_1_0_0_n_n.contr.Idx) :
    (dot_S1536x64_S1536x64_S1536x1536_1_1_0_0_n_n.rhsIdx j q 1).val = (q ⟨0, by decide⟩).val :=
  dot_S1536x64_S1536x64_S1536x1536_1_1_0_0_n_n.rhsIdx_val_of_single rfl j q

/-- The tile product at (p, q): the inner product of row p of the first block with row q of the second. -/
private theorem r0_mm_apply (a b : FVec Ideal S1536x64 .bf16) (p q : Fin 1536) :
    matmul dot_S1536x64_S1536x64_S1536x1536_1_1_0_0_n_n none a b (constant (F := Ideal) S1536x1536 .f32 0x00000000#32) (ix2 p q)
      = ∑ k : Fin 64, a (ix2 p k) * b (ix2 q k) := by
  simp only [matmul]
  rw [Ideal.matmul_constant_zero_apply, ← Equiv.sum_comp (contrEquiv1 dot_S1536x64_S1536x64_S1536x1536_1_1_0_0_n_n 64 rfl rfl).symm]
  refine Finset.sum_congr rfl fun k _ => ?_
  have hk := contrEquiv1_symm_val dot_S1536x64_S1536x64_S1536x1536_1_1_0_0_n_n 64 rfl rfl k
  have el : dot_S1536x64_S1536x64_S1536x1536_1_1_0_0_n_n.lhsIdx (ix2 p q) ((contrEquiv1 dot_S1536x64_S1536x64_S1536x1536_1_1_0_0_n_n 64 rfl rfl).symm k) = ix2 p k := funext fun a => Fin.ext (by
    match a with
    | ⟨0, _⟩ => exact r0_mm_lhs_0 _ _
    | ⟨1, _⟩ => exact (r0_mm_lhs_1 _ _).trans hk)
  have er : dot_S1536x64_S1536x64_S1536x1536_1_1_0_0_n_n.rhsIdx (ix2 p q) ((contrEquiv1 dot_S1536x64_S1536x64_S1536x1536_1_1_0_0_n_n 64 rfl rfl).symm k) = ix2 q k := funext fun a => Fin.ext (by
    match a with
    | ⟨0, _⟩ => exact r0_mm_rhs_0 _ _
    | ⟨1, _⟩ => exact (r0_mm_rhs_1 _ _).trans hk)
  rw [el, er]

/-- The lane maximum at row p: the fold of max, from the literal −∞, over the tile's columns. -/
private theorem r0_rowmax_apply (v : FVec Ideal S1536x1536 .f32) (p : Fin 1536) :
    multiReduction (F := Ideal) .maximumf [1] S1536 v 0xFF800000#32 reduces_S1536x1536_S1536 (.inl rfl) rfl (ix1 p)
      = (Finset.univ : Finset (Fin 1536)).fold max (Ideal.ofBits .f32 0xFF800000#32) (fun q => v (ix2 p q)) := by
  refine (Ideal.multiReduction_maximumf_single v _ reduces_S1536x1536_S1536 (.inl rfl) rfl (ix1 p)).trans ?_
  refine congrArg (fun f => (Finset.univ : Finset (Fin 1536)).fold max (Ideal.ofBits .f32 0xFF800000#32) f) ?_
  funext q
  show v _ = v _
  refine congrArg v (funext fun a => Fin.ext ?_)
  match a with
  | ⟨0, _⟩ => rfl
  | ⟨1, _⟩ => rfl

/-- The column form of a vector: entry (p, 0) is entry p. -/
private theorem r0_col_apply (v : FVec Ideal S1536 .f32) (p : Fin 1536) :
    shapeCast S1536x1 v shapeCasts_S1536_S1536x1 (ix2 p (0 : Fin 1)) = v (ix1 p) := by
  refine shapeCast_apply v shapeCasts_S1536_S1536x1 (ix2 p (0 : Fin 1)) (ix1 p) ?_
  rw [Shape.rowMajor_val_one, Shape.rowMajor_val_two]
  show p.val = p.val * 1 + 0
  omega

/-- The body's stored value at row p: the larger of what the block held and the largest scaled product of the tile's row. -/
private theorem r0_pay2_apply (x0 x1 : Vec Ideal S1536x64 .bf16) (xo : Vec Ideal S1536x1 .f32) (p : Fin 1536) :
    k0_pay2 (F := Ideal) x0 x1 xo (ix2 p (0 : Fin 1))
      = max (xo (ix2 p (0 : Fin 1))) ((Finset.univ : Finset (Fin 1536)).fold max (Ideal.ofBits .f32 0xFF800000#32)
          (fun q => (∑ k : Fin 64, x0 (ix2 p k) * x1 (ix2 q k)) * Ideal.ofBits .f32 0x3E000000#32)) := by
  unfold k0_pay2
  refine (maximumf_apply _ _ _).trans ?_
  refine congrArg₂ max ?_ ?_
  · exact congrFun (shapeCast_self xo _) _
  · refine (r0_col_apply _ p).trans ?_
    refine (r0_rowmax_apply _ p).trans ?_
    refine congrArg (fun f => (Finset.univ : Finset (Fin 1536)).fold max (Ideal.ofBits .f32 0xFF800000#32) f) ?_
    funext q
    refine (mulf_apply _ _ _).trans ?_
    refine congrArg₂ (· * ·) ?_ rfl
    rw [shapeCast_self, shapeCast_self]
    exact r0_mm_apply x0 x1 p q

/-! ## Column maxima over an initial stretch of the rows -/

/-- The largest score of column `col` over the rows below `n`. -/
private def r0_partMax (X Y : Cert.Spec.Mat) (col : Fin 12288) (n : ℕ) : EReal :=
  (Finset.univ.filter fun r : Fin 12288 => r.val < n).sup fun r => Cert.Spec.score X Y r col

/-- The largest score of column `col` over the rows of row block `rb`. -/
private def r0_tileMax (X Y : Cert.Spec.Mat) (col : Fin 12288) (rb : ℕ) : EReal :=
  Finset.univ.sup fun q : Fin 1536 => Cert.Spec.score X Y ⟨1536 * (rb % 8) + q.val, by have := q.isLt; omega⟩ col

private theorem r0_partMax_zero (X Y : Cert.Spec.Mat) (col : Fin 12288) : r0_partMax X Y col 0 = ⊥ :=
  le_antisymm (Finset.sup_le fun r hr => absurd (Finset.mem_filter.mp hr).2 (Nat.not_lt_zero _)) bot_le

private theorem r0_partMax_all (X Y : Cert.Spec.Mat) (col : Fin 12288) : r0_partMax X Y col 12288 = Cert.Spec.colMax X Y col := by
  unfold r0_partMax Cert.Spec.colMax
  rw [Finset.filter_true_of_mem fun r _ => r.isLt]

/-- One more row block: the maximum over the rows so far and the block's own maximum. -/
private theorem r0_partMax_step (X Y : Cert.Spec.Mat) (col : Fin 12288) (rb : ℕ) (hrb : rb < 8) :
    r0_partMax X Y col (1536 * (rb + 1)) = max (r0_partMax X Y col (1536 * rb)) (r0_tileMax X Y col rb) := by
  unfold r0_partMax r0_tileMax
  apply le_antisymm
  · refine Finset.sup_le fun r hr => ?_
    have hr' := (Finset.mem_filter.mp hr).2
    by_cases hlt : r.val < 1536 * rb
    · exact le_max_of_le_left (Finset.le_sup (f := fun r => Cert.Spec.score X Y r col) (Finset.mem_filter.mpr ⟨Finset.mem_univ _, hlt⟩))
    · refine le_max_of_le_right ?_
      have hq : r.val - 1536 * rb < 1536 := by omega
      have e : r = ⟨1536 * (rb % 8) + (⟨r.val - 1536 * rb, hq⟩ : Fin 1536).val, by rw [Nat.mod_eq_of_lt hrb]; show 1536 * rb + (r.val - 1536 * rb) < 12288; have := r.isLt; omega⟩ :=
        Fin.ext (by show r.val = 1536 * (rb % 8) + (r.val - 1536 * rb); rw [Nat.mod_eq_of_lt hrb]; omega)
      exact (le_of_eq (congrArg (fun r' => Cert.Spec.score X Y r' col) e)).trans
        (Finset.le_sup (f := fun q : Fin 1536 => Cert.Spec.score X Y ⟨1536 * (rb % 8) + q.val, by have := q.isLt; omega⟩ col)
          (Finset.mem_univ (⟨r.val - 1536 * rb, hq⟩ : Fin 1536)))
  · refine max_le ?_ ?_
    · exact Finset.sup_mono (fun r hr => Finset.mem_filter.mpr ⟨Finset.mem_univ _, by have := (Finset.mem_filter.mp hr).2; omega⟩)
    · refine Finset.sup_le fun q _ => ?_
      exact Finset.le_sup (f := fun r => Cert.Spec.score X Y r col) (Finset.mem_filter.mpr ⟨Finset.mem_univ _, by
        show 1536 * (rb % 8) + q.val < 1536 * (rb + 1); rw [Nat.mod_eq_of_lt hrb]; have := q.isLt; omega⟩)

/-- A fold of max from −∞ over a tile's scaled products, one row of the second table against the block's rows of the first, is the block's maximum. -/
private theorem r0_fold_eq_tileMax (X Y : Cert.Spec.Mat) (col : Fin 12288) (rb : ℕ) :
    (Finset.univ : Finset (Fin 1536)).fold max (Ideal.ofBits .f32 0xFF800000#32)
        (fun q => (∑ k : Fin 64, Y (ix2 col k) * X (ix2 (⟨1536 * (rb % 8) + q.val, by have := q.isLt; omega⟩ : Fin 12288) k)) * Ideal.ofBits .f32 0x3E000000#32)
      = r0_tileMax X Y col rb := by
  rw [Cert.Spec.ofBits_neg_inf, Cert.Spec.ofBits_eighth]
  unfold r0_tileMax
  have e : (fun q : Fin 1536 => (∑ k : Fin 64, Y (ix2 col k) * X (ix2 (⟨1536 * (rb % 8) + q.val, by have := q.isLt; omega⟩ : Fin 12288) k)) * Cert.Spec.eighth)
      = fun q : Fin 1536 => Cert.Spec.score X Y ⟨1536 * (rb % 8) + q.val, by have := q.isLt; omega⟩ col := by
    funext q
    unfold Cert.Spec.score
    exact congrArg (· * Cert.Spec.eighth) (Finset.sum_congr rfl fun k _ => mul_comm _ _)
  rw [e]
  rfl

/-! ## The blocks the windows read -/

private abbrev r0_xarr (c : Dev nD) : Cert.Spec.Mat := V c main_v0
private abbrev r0_yarr (c : Dev nD) : Cert.Spec.Mat := V c main_v1
private abbrev r0_yblk (c : Dev nD) (t : Fin cfg0.N) : Vec Ideal S1536x64 .bf16 := iblk0 V c 0 t
private abbrev r0_xblk (c : Dev nD) (t : Fin cfg0.N) : Vec Ideal S1536x64 .bf16 := iblk0 V c 1 t

/-- The index maps over the grid: the column block is the point's quotient by 8, the row block its remainder. -/
private theorem r0_idx_facts : ∀ t : Fin cfg0.N,
    win0_0.index t (0 : Fin 2) = t.val / 8 % 8 ∧ win0_0.index t (1 : Fin 2) = 0
    ∧ win0_1.index t (0 : Fin 2) = t.val % 8 % 8 ∧ win0_1.index t (1 : Fin 2) = 0
    ∧ win0_2.index t (0 : Fin 2) = t.val / 8 % 8 ∧ win0_2.index t (1 : Fin 2) = 0 :=
  (by decide +kernel : ∀ t : Fin grid0.N, _)

/-- The first window's block at a point: the rows of the second table of the point's column block. -/
private theorem r0_yblk_apply (c : Dev nD) (t : Fin cfg0.N) (p : Fin 1536) (k : Fin 64) :
    r0_yblk V c t (ix2 p k) = r0_yarr V c (ix2 (⟨1536 * (t.val / 8 % 8) + p.val, by have := p.isLt; omega⟩ : Fin 12288) k) := by
  obtain ⟨e0, e1, -⟩ := r0_idx_facts t
  show ((cfg0.win 0).blk t).view.read (Elt Ideal) (V c (Pipeline.arrRef spec0 0)) (ix2 p k) = _
  rw [View.read_apply]
  show V c main_v1 _ = V c main_v1 _
  congr 1
  funext a
  apply Fin.ext
  match a with
  | ⟨0, _⟩ => show win0_0.index t 0 * 1536 + 1 * p.val = 1536 * (t.val / 8 % 8) + p.val; rw [e0]; omega
  | ⟨1, _⟩ => show win0_0.index t 1 * 64 + 1 * k.val = k.val; rw [e1]; omega

/-- The second window's block at a point: the rows of the first table of the point's row block. -/
private theorem r0_xblk_apply (c : Dev nD) (t : Fin cfg0.N) (q : Fin 1536) (k : Fin 64) :
    r0_xblk V c t (ix2 q k) = r0_xarr V c (ix2 (⟨1536 * (t.val % 8 % 8) + q.val, by have := q.isLt; omega⟩ : Fin 12288) k) := by
  obtain ⟨-, -, e0, e1, -⟩ := r0_idx_facts t
  show ((cfg0.win 1).blk t).view.read (Elt Ideal) (V c (Pipeline.arrRef spec0 1)) (ix2 q k) = _
  rw [View.read_apply]
  show V c main_v0 _ = V c main_v0 _
  congr 1
  funext a
  apply Fin.ext
  match a with
  | ⟨0, _⟩ => show win0_1.index t 0 * 1536 + 1 * q.val = 1536 * (t.val % 8 % 8) + q.val; rw [e0]; omega
  | ⟨1, _⟩ => show win0_1.index t 1 * 64 + 1 * k.val = k.val; rw [e1]; omega

/-- One point's update at row p of the output block: the larger of what the block held and the row block's maximum. -/
private theorem r0_step (c : Dev nD) (t : Fin cfg0.N) (prev : Vec Ideal S1536x1 .f32) (p : Fin 1536) :
    k0_pay2 (F := Ideal) (r0_yblk V c t) (r0_xblk V c t) prev (ix2 p (0 : Fin 1))
      = max (prev (ix2 p (0 : Fin 1)))
          (r0_tileMax (r0_xarr V c) (r0_yarr V c) ⟨1536 * (t.val / 8 % 8) + p.val, by have := p.isLt; omega⟩ (t.val % 8)) := by
  refine (r0_pay2_apply (r0_yblk V c t) (r0_xblk V c t) prev p).trans ?_
  refine congrArg (max (prev (ix2 p (0 : Fin 1)))) ?_
  refine Eq.trans ?_ (r0_fold_eq_tileMax (r0_xarr V c) (r0_yarr V c) ⟨1536 * (t.val / 8 % 8) + p.val, by have := p.isLt; omega⟩ (t.val % 8))
  refine congrArg (fun f => (Finset.univ : Finset (Fin 1536)).fold max (Ideal.ofBits .f32 0xFF800000#32) f) ?_
  funext q
  refine congrArg (· * Ideal.ofBits .f32 0x3E000000#32) (Finset.sum_congr rfl fun k _ => ?_)
  rw [r0_yblk_apply V c t p k, r0_xblk_apply V c t q k]

/-! ## The running maximum, point by point -/

/-- At a point on the first row block: the block's own maximum. -/
private theorem r0_caseA (c : Dev nD) (t : Fin cfg0.N) (h0 : t.val % 8 = 0) (p : Fin 1536) :
    outsAt0 V c t.val t.isLt (ix2 p (0 : Fin 1))
      = r0_partMax (r0_xarr V c) (r0_yarr V c) ⟨1536 * (t.val / 8 % 8) + p.val, by have := p.isLt; omega⟩ (1536 * (t.val % 8 + 1)) := by
  rw [outsAt0_A V c t h0]
  refine (congrFun (r0_piece_A (G := Ideal) c (grid0.coords t) (ms0_0 t) (hs0_0 t) (ms0_1 t) (hs0_1 t) (ms0_2 t) (hs0_2 t)
    ((hcond0_0 t).mpr h0) (r0_yblk V c t) (r0_xblk V c t)) (ix2 p (0 : Fin 1))).trans ?_
  refine (r0_step V c t (k0_pay1 (F := Ideal)) p).trans ?_
  rw [r0_partMax_step _ _ _ (t.val % 8) (Nat.mod_lt _ (by decide)), h0]
  refine congrArg₂ max ?_ rfl
  rw [Nat.mul_zero, r0_partMax_zero]
  exact Cert.Spec.ofBits_neg_inf

/-- At a later point of a column block: what the point before left, and this row block's maximum. -/
private theorem r0_caseB (c : Dev nD) (t : Fin cfg0.N) (h0 : ¬t.val % 8 = 0)
    (ih : ∀ p : Fin 1536, outsAt0 V c (t.val - 1) (Nat.lt_of_le_of_lt (Nat.sub_le _ _) t.isLt) (ix2 p (0 : Fin 1))
      = r0_partMax (r0_xarr V c) (r0_yarr V c) ⟨1536 * ((t.val - 1) / 8 % 8) + p.val, by have := p.isLt; omega⟩ (1536 * ((t.val - 1) % 8 + 1)))
    (p : Fin 1536) :
    outsAt0 V c t.val t.isLt (ix2 p (0 : Fin 1))
      = r0_partMax (r0_xarr V c) (r0_yarr V c) ⟨1536 * (t.val / 8 % 8) + p.val, by have := p.isLt; omega⟩ (1536 * (t.val % 8 + 1)) := by
  rw [outsAt0_B V c t h0]
  refine (congrFun (r0_piece_B (G := Ideal) c (grid0.coords t) (ms0_0 t) (hs0_0 t) (ms0_1 t) (hs0_1 t) (ms0_2 t) (hs0_2 t)
    (fun h => h0 ((hcond0_0 t).mp h)) (r0_yblk V c t) (r0_xblk V c t)
    (outsAt0 V c (t.val - 1) (Nat.lt_of_le_of_lt (Nat.sub_le _ _) t.isLt))) (ix2 p (0 : Fin 1))).trans ?_
  refine (r0_step V c t (outsAt0 V c (t.val - 1) (Nat.lt_of_le_of_lt (Nat.sub_le _ _) t.isLt)) p).trans ?_
  rw [r0_partMax_step _ _ _ (t.val % 8) (Nat.mod_lt _ (by decide)), ih p]
  refine congrArg₂ max ?_ rfl
  have e1 : (t.val - 1) / 8 % 8 = t.val / 8 % 8 := by omega
  have e2 : (t.val - 1) % 8 + 1 = t.val % 8 := by omega
  have ec : (⟨1536 * ((t.val - 1) / 8 % 8) + p.val, by have := p.isLt; omega⟩ : Fin 12288)
      = ⟨1536 * (t.val / 8 % 8) + p.val, by have := p.isLt; omega⟩ := Fin.ext (by show 1536 * ((t.val - 1) / 8 % 8) + p.val = 1536 * (t.val / 8 % 8) + p.val; rw [e1])
  rw [ec, e2]

/-- After point n the output block holds, at row p, the largest score of its column over the rows of the row blocks swept so far. -/
private theorem r0_outsAt_eq (c : Dev nD) : ∀ (n : ℕ) (h : n < cfg0.N) (p : Fin 1536),
    outsAt0 V c n h (ix2 p (0 : Fin 1))
      = r0_partMax (r0_xarr V c) (r0_yarr V c) ⟨1536 * (n / 8 % 8) + p.val, by have := p.isLt; omega⟩ (1536 * (n % 8 + 1)) := by
  intro n
  induction n with
  | zero => intro h p; exact r0_caseA V c ⟨0, h⟩ rfl p
  | succ n ih =>
    intro h p
    by_cases h0 : (n + 1) % 8 = 0
    · exact r0_caseA V c ⟨n + 1, h⟩ h0 p
    · exact r0_caseB V c ⟨n + 1, h⟩ h0 (fun p' => ih (Nat.lt_of_succ_lt h) p') p

/-! ## The result array -/

private abbrev r0_result (c : Dev nD) : S12288x1.Idx → EReal :=
  fun i => Cert.Spec.colMax (V c main_v0) (V c main_v1) (i 0)

/-- What a write-back point (the last row block of a column block) writes: the column maxima of its column block. -/
private theorem r0_flushed_eq (c : Dev nD) (t : Fin cfg0.N) (hf : (cfg0.win 2).flush t = true) :
    (dat0 V c).flushed 2 t = ((cfg0.win 2).blk t).view.read (Elt Ideal) (r0_result V c) := by
  have h7 : t.val % 8 = 7 := (flush0_2 t).mp hf
  obtain ⟨-, -, -, -, e0, e1⟩ := r0_idx_facts t
  show (cfg0.win 2).cut (grid0.coords t) ((dat0 V c).after 2 t) = _
  rw [after0_2]
  have key : ∀ j : S1536x1.Idx, outsAt0 V c t.val t.isLt j = r0_result V c (((cfg0.win 2).blk t).view.emb j) := by
    intro j
    obtain ⟨p, z, rfl⟩ : ∃ (p : Fin 1536) (z : Fin 1), j = ix2 p z := ⟨j 0, j 1, eq_ix2 j⟩
    obtain rfl : z = 0 := Subsingleton.elim _ _
    rw [r0_outsAt_eq V c t.val t.isLt p, h7]
    show r0_partMax _ _ _ 12288 = _
    rw [r0_partMax_all]
    show Cert.Spec.colMax (V c main_v0) (V c main_v1) _ = Cert.Spec.colMax (V c main_v0) (V c main_v1) _
    congr 1
    apply Fin.ext
    show 1536 * (t.val / 8 % 8) + p.val = win0_2.index t 0 * 1536 + 1 * p.val
    rw [e0]; omega
  exact funext key

/-- An index of the result array is in point t's block iff each coordinate is in the block's range. -/
private theorem r0_mem_blk (t : Fin cfg0.N) (i : S12288x1.Idx) :
    i ∈ ((cfg0.win 2).blk t).view.set ↔ ∀ a : Fin 2, win0_2.index t a * S1536x1.size a ≤ (i a).val ∧ (i a).val < win0_2.index t a * S1536x1.size a + S1536x1.size a := by
  show i ∈ ((View.whole main_v2).slice (win0_2.rect t)).set ↔ _
  rw [View.set_slice_whole, Rect.mem_set_unit]
  exact Iff.rfl

/-- What the first kernel leaves in its result array: each column's largest score. -/
theorem region0_arr (c : Dev nD) :
    ((dat0 (F := Ideal) V c).arrAt 2 cfg0.N : S12288x1.Idx → EReal)
      = fun i => Cert.Spec.colMax (V c main_v0) (V c main_v1) (i 0) := by
  refine (dat0 (F := Ideal) V c).arrAt_eq_of_cover 2 (r0_result V c) (r0_flushed_eq V c) fun i => ?_
  have hi0 : (i 0).val < 12288 := (i 0).isLt
  have hi1 : (i 1).val < 1 := (i 1).isLt
  have hN : cfg0.N = 64 := N_0
  have hlt : 8 * ((i 0).val / 1536) + 7 < cfg0.N := by rw [hN]; omega
  have htv : (⟨8 * ((i 0).val / 1536) + 7, hlt⟩ : Fin cfg0.N).val = 8 * ((i 0).val / 1536) + 7 := rfl
  obtain ⟨-, -, -, -, e0, e1⟩ := r0_idx_facts ⟨8 * ((i 0).val / 1536) + 7, hlt⟩
  rw [htv] at e0
  refine ⟨⟨8 * ((i 0).val / 1536) + 7, hlt⟩, (flush0_2 _).mpr (by rw [htv]; omega), ?_⟩
  rw [r0_mem_blk]
  intro a
  match a with
  | ⟨0, _⟩ =>
    show win0_2.index ⟨8 * ((i 0).val / 1536) + 7, hlt⟩ 0 * 1536 ≤ (i 0).val
      ∧ (i 0).val < win0_2.index ⟨8 * ((i 0).val / 1536) + 7, hlt⟩ 0 * 1536 + 1536
    rw [e0]; omega
  | ⟨1, _⟩ =>
    show win0_2.index ⟨8 * ((i 0).val / 1536) + 7, hlt⟩ 1 * 1 ≤ (i 1).val
      ∧ (i 1).val < win0_2.index ⟨8 * ((i 0).val / 1536) + 7, hlt⟩ 1 * 1 + 1
    rw [e1]; omega

end Cert.KernelIdeal.Hand

end
-- ==== Proof.LibGather.lean ====
/-
  Table look-ups read at one element: the index normalisation (a negative word counts from the end), a row
  look-up `table[idx]` of a two-axis table by a column of index words, and an entry look-up `table[i, j]` by a
  two-column array of index words. Every start index is read signed and clipped into the table.
-/
import Idealize.ShloMosaic.PureOps.ShapeOps
import Idealize.ShloMosaic.PureOps.Dims
import Idealize.ShloMosaic.Lib.ValueIdx
import Idealize.ShloMosaic.Lib.Pipeline.Value
import Idealize.ShloMosaic.Lib.StableHlo.Predicate
import proofs.«417629_j27702539059750_3_alg».proof.Proof.Spec

noncomputable section

namespace Cert.LibGather

open Idealize.ShloMosaic Idealize.ShloMosaic.ValueIdx

/-- A list of axes known to be a single axis reads that axis at any position. -/
private theorem getElem_of_eq_singleton {β : Type} (l : List β) (b : β) (hl : l = [b]) (i : Nat) (hi : i < l.length) :
    l[i] = b := by
  subst hl
  have : i = 0 := by simpa using hi
  subst this
  rfl

/-- A list of axes known to be a pair of axes reads them in order. -/
private theorem getElem_of_eq_pair {β : Type} (l : List β) (a b : β) (hl : l = [a, b]) (i : Nat) (hi : i < l.length) :
    l[i] = if i = 0 then a else b := by
  subst hl
  have : i = 0 ∨ i = 1 := by simp at hi; omega
  rcases this with rfl | rfl <;> rfl

/-- The normalisation of an index array read at an index. -/
theorem nrm_read {s : Shape} (h0 : (⟨0, ![]⟩ : Shape).BroadcastsInDim s (![] : Fin 0 → Fin s.rank))
    (idx : IVec s 32) (i : s.Idx) :
    select (cmpi .slt idx (broadcastInDim s ![] h0 (constantI ⟨0, ![]⟩ 32 0#32)))
      (addi idx (broadcastInDim s ![] h0 (constantI ⟨0, ![]⟩ 32 12288#32))) idx i
      = Cert.Spec.nrm (idx i) := by
  rfl

/-- A column of index words read at an edge: the vector's word. -/
theorem bcast_col_read {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  simp only [broadcastInDim]
  congr 1
  funext a
  obtain rfl : a = 0 := Subsingleton.elim _ _
  apply Fin.ext
  have he := e.isLt
  split
  · next h1 => change n = 1 at h1; show (0 : Nat) = e.val; omega
  · rfl

/-- A row look-up: result row `e` is the table's row at the clipped index word of `e`. -/
theorem gather_rows_apply {α : Type} {N D n w : Nat} (d : GatherDims ⟨2, ![N, D]⟩ ⟨2, ![n, 1]⟩ ⟨2, ![n, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  unfold Host.gather
  congr 1
  funext a
  apply Fin.ext
  have hb : ∀ a : Fin 2, a ∉ d.operandBatchingDims := fun a => by rw [h3]; exact List.not_mem_nil
  have hbatch : d.batchDims = [0] := by
    show (⟨2, ![n, D]⟩ : Shape).kept d.offsetDims = [0]
    rw [h1]; rfl
  match a with
  | ⟨0, _⟩ =>
    have hk : (0 : Fin 2) ∉ d.sKept := by rw [GatherDims.mem_sKept, h2]; simp
    have hm : (0 : Fin 2) ∈ d.startIndexMap := by rw [h5]; exact List.mem_singleton.mpr rfl
    have hsl : d.sliceSizes 0 = 1 := d.slice_collapsed 0 (by rw [h2]; exact List.mem_singleton.mpr rfl)
    show d.start (ix2 e k) idx 0 + d.batchCoord (ix2 e k) 0 + d.offCoord (ix2 e k) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [h6]; simp)]
      unfold GatherDims.siCoord
      apply Fin.ext
      simp only [Fin.val_cast]
      rw [getElem_of_eq_singleton _ _ hbatch]
      rfl
    | ⟨1, _⟩ =>
      unfold GatherDims.siIdx
      rw [dif_pos (by rw [h6])]
      apply Fin.ext
      show List.idxOf (0 : Fin 2) d.startIndexMap = 0
      rw [h5]; simp
  | ⟨1, _⟩ =>
    have hk : (1 : Fin 2) ∈ d.sKept := by rw [GatherDims.mem_sKept, h2, h3]; simp
    have hm : (1 : Fin 2) ∉ d.startIndexMap := by rw [h5]; simp
    show d.start (ix2 e k) idx 1 + d.batchCoord (ix2 e k) 1 + d.offCoord (ix2 e k) 1 = _
    rw [GatherDims.batchCoord_eq_zero _ _ _ (hb 1)]
    simp only [Nat.add_zero, GatherDims.start, dif_neg hm, Nat.zero_add]
    unfold GatherDims.offCoord
    rw [dif_pos hk, getElem_of_eq_singleton _ _ h1]
    rfl

/-- An entry look-up: result `e` is the table's entry at the two clipped index words of `e`. -/
theorem gather_pair_apply {α : Type} {N M n w : Nat} (d : GatherDims ⟨2, ![N, M]⟩ ⟨2, ![n, 2]⟩ ⟨1, ![n]⟩)
    (h1 : d.offsetDims = []) (h2 : d.collapsedSliceDims = [0, 1]) (h3 : d.operandBatchingDims = [])
    (h4 : d.startIndicesBatchingDims = []) (h5 : d.startIndexMap = [0, 1]) (h6 : d.indexVectorDim = 1)
    (x : (⟨2, ![N, M]⟩ : Shape).Idx → α) (idx : IVec ⟨2, ![n, 2]⟩ w) (e : Fin n) (hN : 0 < N) (hM : 0 < M) :
    Host.gather d x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  unfold Host.gather
  congr 1
  funext a
  apply Fin.ext
  have hb : ∀ a : Fin 2, a ∉ d.operandBatchingDims := fun a => by rw [h3]; exact List.not_mem_nil
  have hk : ∀ a : Fin 2, a ∉ d.sKept := fun a => by
    rw [GatherDims.mem_sKept, h2]
    match a with
    | ⟨0, _⟩ => simp
    | ⟨1, _⟩ => simp
  have hm : ∀ a : Fin 2, a ∈ d.startIndexMap := fun a => by
    rw [h5]
    match a with
    | ⟨0, _⟩ => simp
    | ⟨1, _⟩ => simp
  have hsl : ∀ a : Fin 2, d.sliceSizes a = 1 := fun a => d.slice_collapsed a (by
    rw [h2]
    match a with
    | ⟨0, _⟩ => simp
    | ⟨1, _⟩ => simp)
  -- the start-indices index of component `c` of edge `e`'s start index is `(e, c)`
  have hsi : ∀ (c : Fin 2) (hc : c.val < d.startIndexMap.length), d.siIdx (ix1 e) ⟨c.val, hc⟩ = ix2 e c := by
    intro c hc
    funext b
    match b with
    | ⟨0, _⟩ =>
      unfold GatherDims.siIdx
      rw [dif_neg (by rw [h6]; simp)]
      unfold GatherDims.siCoord
      apply Fin.ext
      simp only [Fin.val_cast]
      have e1 : ∀ X : Fin 1, ((ix1 e : (⟨1, ![n]⟩ : Shape).Idx) X).val = e.val := fun X => by
        obtain rfl : X = 0 := Subsingleton.elim _ _
        rfl
      exact e1 _
    | ⟨1, _⟩ =>
      unfold GatherDims.siIdx
      rw [dif_pos (by rw [h6])]
      rfl
  have hidx : ∀ a : Fin 2, List.idxOf a d.startIndexMap = a.val := fun a => by
    rw [h5]
    match a with
    | ⟨0, _⟩ => rfl
    | ⟨1, _⟩ => rfl
  have hstart : ∀ a : Fin 2, d.start (ix1 e) idx a
      = min (idx (ix2 e a)).toInt.toNat ((⟨2, ![N, M]⟩ : Shape).size a - 1) := by
    intro a
    unfold GatherDims.start
    rw [dif_pos (hm a), hsl a]
    congr 3
    congr 1
    rw [← hsi a (by rw [← hidx a]; exact List.idxOf_lt_length_iff.2 (hm a))]
    congr 1
    exact Fin.ext (hidx a)
  show d.start (ix1 e) idx a + d.batchCoord (ix1 e) a + d.offCoord (ix1 e) a = _
  rw [GatherDims.batchCoord_eq_zero _ _ _ (hb a), GatherDims.offCoord_eq_zero _ _ _ (hk a), hstart a]
  match a with
  | ⟨0, _⟩ => rfl
  | ⟨1, _⟩ => rfl

/-- A look-up in a one-axis table: result `e` is the table's entry at the clipped index word of `e`. -/
theorem gather_vec_apply {α : Type} {N n w : Nat} (d : GatherDims ⟨1, ![N]⟩ ⟨2, ![n, 1]⟩ ⟨1, ![n]⟩)
    (h2 : d.collapsedSliceDims = [0]) (h3 : d.operandBatchingDims = [])
    (h5 : d.startIndexMap = [0]) (h6 : d.indexVectorDim = 1)
    (x : (⟨1, ![N]⟩ : Shape).Idx → α) (idx : IVec ⟨2, ![n, 1]⟩ w) (e : Fin n) (hN : 0 < N) :
    Host.gather d x idx (ix1 e) = x (ix1 (⟨min (idx (ix2 e (0 : Fin 1))).toInt.toNat (N - 1), by omega⟩ : Fin N)) := by
  have hof : ∀ {m : Nat} (p : Fin m), (Shape.Idx.ofFin p : (⟨1, ![m]⟩ : Shape).Idx) = ix1 p := fun p => by
    funext a; match a with | ⟨0, _⟩ => rfl
  have hP : (StableHlo.Predicate.ixP e : (⟨2, ![n, 1]⟩ : Shape).Idx) = ix2 e (0 : Fin 1) := by
    funext a; match a with | ⟨0, _⟩ => rfl | ⟨1, _⟩ => rfl
  have h := StableHlo.Predicate.gather_take d h2 h3 h5 h6 x idx e hN
  simp only [hof, hP] at h
  exact h

end Cert.LibGather

end
-- ==== Proof.KernelHost.lean ====
/-
  The host lines between the two kernels, read at an index: the hidden rows looked up by the edges' row words,
  the edges' exponents (score less the column's largest score, capped at zero, times the edge value), and the
  column words as a one-column array.
-/
import proofs.«417629_j27702539059750_3_alg».proof.Proof.Gen.KernelIdeal.Frame
import proofs.«417629_j27702539059750_3_alg».proof.Proof.Spec
import proofs.«417629_j27702539059750_3_alg».proof.Proof.KSpec
import proofs.«417629_j27702539059750_3_alg».proof.Proof.Region0
import proofs.«417629_j27702539059750_3_alg».proof.Proof.LibGather
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first kernel's two operands are the feature tables themselves (a change of float format is the identity). -/
theorem v0_eq (c : Dev nD) : (V1 m ρ c main_v0 : S12288x64.Idx → EReal) = m ((c.tc : Thread nD τ).loc main_arg0) := by
  show StableHlo.after hostOps0 (W0 m ρ c) (Proc.devRef .tc main_v0) = _
  after_results
  rfl
theorem v1_eq (c : Dev nD) : (V1 m ρ c main_v1 : S12288x64.Idx → EReal) = m ((c.tc : Thread nD τ).loc main_arg1) := by
  show StableHlo.after hostOps0 (W0 m ρ c) (Proc.devRef .tc main_v1) = _
  after_results
  rfl

/-- An array no operation before the second kernel writes holds what was launched. -/
private theorem W2_arg (c : Dev nD) (b : Ref sig .tc) (hb : ∀ w, Pipeline.arrRef spec0 w ≠ b)
    (h0 : b ≠ main_v0) (h1 : b ≠ main_v1) :
    W2 m ρ c (Proc.devRef .tc b) = m ((c : Thread nD τ).loc b) := by
  rw [W2_of_ne m ρ c b hb]
  show StableHlo.after hostOps0 (W0 m ρ c) (Proc.devRef .tc b) = _
  simp only [StableHlo.after_cons, StableHlo.after_nil]
  rw [StableHlo.unary_result_ne, StableHlo.unary_result_ne]
  all_goals first | exact h0 | exact h1

/-- A vector reshaped to one column reads, at row `i`, the vector's entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column reshaped to a vector reads, at `i`, the column's row `i`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The row an edge's word looks up, as the table look-up computes it: the word normalised, spread to a column,
    read signed and clipped. -/
private theorem pos_read (h0 : (⟨0, ![]⟩ : Shape).BroadcastsInDim S393216 (![] : Fin 0 → Fin S393216.rank))
    (h1 : S393216.BroadcastsInDim S393216x1 ![0]) (idx : IVec S393216 32) (e : Fin 393216)
    (hlt : min ((broadcastInDim S393216x1 ![0] h1
        (select (cmpi .slt idx (broadcastInDim S393216 ![] h0 (constantI ⟨0, ![]⟩ 32 0#32)))
          (addi idx (broadcastInDim S393216 ![] h0 (constantI ⟨0, ![]⟩ 32 12288#32))) idx)) (ix2 e (0 : Fin 1))).toInt.toNat
        (12288 - 1) < 12288) :
    (⟨min ((broadcastInDim S393216x1 ![0] h1
        (select (cmpi .slt idx (broadcastInDim S393216 ![] h0 (constantI ⟨0, ![]⟩ 32 0#32)))
          (addi idx (broadcastInDim S393216 ![] h0 (constantI ⟨0, ![]⟩ 32 12288#32))) idx)) (ix2 e (0 : Fin 1))).toInt.toNat
        (12288 - 1), hlt⟩ : Fin 12288) = Cert.Spec.pos (idx (ix1 e)) := by
  apply Fin.ext
  show min _ (12288 - 1) = min (Cert.Spec.nrm (idx (ix1 e))).toInt.toNat (12288 - 1)
  rw [Cert.LibGather.bcast_col_read, Cert.LibGather.nrm_read]

/-- What the first kernel left, as the host lines after it read it: each column's largest score. -/
private theorem W2_v2 (c : Dev nD) : (W2 m ρ c (Proc.devRef .tc main_v2) : S12288x1.Idx → EReal)
    = fun i => Cert.Spec.colMax (m ((c.tc : Thread nD τ).loc main_arg0)) (m ((c.tc : Thread nD τ).loc main_arg1)) (i 0) := by
  have h : W2 m ρ c (Proc.devRef .tc main_v2) = (dat0 (V1 m ρ) c).arrAt 2 cfg0.N := W2_arr m ρ c 2
  rw [h, region0_arr (V1 m ρ) c, v0_eq, v1_eq]

/-- The shape of an edge's exponent: a product less a shift, capped, times the edge value. -/
private theorem expo_congr {a a' b b' s s' z v : EReal} (ha : a = a') (hb : b = b') (hs : s = s') (hz : z = 0) :
    min (a * b - s) z * v = min (a' * b' - s') 0 * v := by
  subst ha hb hs hz; rfl

set_option maxHeartbeats 4000000 in
/-- The second kernel's first operand: the hidden row each edge's row word looks up. -/
theorem v24_eq (c : Dev nD) : (V3 m ρ c main_v24 : S393216x64.Idx → EReal)
    = fun i => (m ((c.tc : Thread nD τ).loc main_arg2) : S12288x64.Idx → EReal)
        (ix2 (Cert.Spec.pos ((m ((c.tc : Thread nD τ).loc main_arg5) : S393216.Idx → BitVec 32) (ix1 (i 0)))) (i 1)) := by
  show StableHlo.after hostOps1 (W2 m ρ c) (Proc.devRef .tc main_v24) = _
  after_results_simp
  rw [W2_arg m ρ c main_arg2 (by decide) (by decide) (by decide), W2_arg m ρ c main_arg5 (by decide) (by decide) (by decide)]
  funext i
  obtain ⟨e, k, rfl⟩ : ∃ e k, i = ix2 e k := ⟨i 0, i 1, eq_ix2 i⟩
  refine (Cert.LibGather.gather_rows_apply _ rfl rfl rfl rfl rfl rfl _ _ e k (by decide)).trans ?_
  exact congrArg (fun p => (m ((c.tc : Thread nD τ).loc main_arg2) : S12288x64.Idx → EReal) (ix2 p k))
    (pos_read _ _ (m ((c.tc : Thread nD τ).loc main_arg5)) e _)

set_option maxHeartbeats 4000000 in
/-- The second kernel's second operand: each edge's exponent. -/
theorem v40_eq (c : Dev nD) : (V3 m ρ c main_v40 : S393216x1.Idx → EReal)
    = fun i => min (Cert.Spec.shift (m ((c.tc : Thread nD τ).loc main_arg0)) (m ((c.tc : Thread nD τ).loc main_arg1))
          (m ((c.tc : Thread nD τ).loc main_arg5)) (m ((c.tc : Thread nD τ).loc main_arg6)) (i 0)) 0
        * (m ((c.tc : Thread nD τ).loc main_arg4) : S393216.Idx → EReal) (ix1 (i 0)) := by
  show StableHlo.after hostOps1 (W2 m ρ c) (Proc.devRef .tc main_v40) = _
  after_results_simp
  rw [W2_arg m ρ c main_arg0 (by decide) (by decide) (by decide), W2_arg m ρ c main_arg1 (by decide) (by decide) (by decide),
    W2_arg m ρ c main_arg4 (by decide) (by decide) (by decide), W2_arg m ρ c main_arg5 (by decide) (by decide) (by decide),
    W2_arg m ρ c main_arg6 (by decide) (by decide) (by decide)]
  funext i
  obtain ⟨e, u, rfl⟩ : ∃ e u, i = ix2 e u := ⟨i 0, i 1, eq_ix2 i⟩
  refine (shapeCast_a_a1_apply _ _ e u).trans ?_
  rw [mulf_apply, minimumf_apply, subf_apply, mulf_apply]
  have hR : S393216x64.Reduces [1] S393216 := by decide
  refine expo_congr ?_ ?_ ?_ ?_
  · -- the inner product of the two looked-up rows: a sum over the 64 features, started at zero
    refine (hostReduceAdd_apply _ _ _ _ _).trans ?_
    refine (Ideal.hostReduceAdd_single _ hR _ _ _).trans ?_
    rw [constant_apply, Ideal.ofBits_zero_f32, zero_add]
    refine Finset.sum_congr rfl fun (k : Fin 64) _ => ?_
    have hl : hR.lift (ix1 e) k = @ix2 393216 64 e k := by
      funext a; match a with | ⟨0, _⟩ => rfl | ⟨1, _⟩ => rfl
    rw [hl, mulf_apply]
    refine congrArg₂ (· * ·) ?_ ?_
    · refine (Cert.LibGather.gather_rows_apply _ rfl rfl rfl rfl rfl rfl _ _ e k (by decide)).trans ?_
      exact congrArg (fun p => (m ((c.tc : Thread nD τ).loc main_arg0) : S12288x64.Idx → EReal) (ix2 p k))
        (pos_read _ _ (m ((c.tc : Thread nD τ).loc main_arg5)) e _)
    · refine (Cert.LibGather.gather_rows_apply _ rfl rfl rfl rfl rfl rfl _ _ e k (by decide)).trans ?_
      exact congrArg (fun p => (m ((c.tc : Thread nD τ).loc main_arg1) : S12288x64.Idx → EReal) (ix2 p k))
        (pos_read _ _ (m ((c.tc : Thread nD τ).loc main_arg6)) e _)
  · -- the scale one eighth
    exact (broadcastInDim_scalar_apply _ _ _).trans ((constant_apply _ _).trans Cert.Spec.ofBits_eighth)
  · -- the column's largest score, looked up by the column word
    refine (Cert.LibGather.gather_vec_apply _ rfl rfl rfl rfl _ _ e (by decide)).trans ?_
    refine (shapeCast_a1_a_apply _ _ _).trans ?_
    rw [W2_v2]
    exact congrArg (fun p => Cert.Spec.colMax (m ((c.tc : Thread nD τ).loc main_arg0)) (m ((c.tc : Thread nD τ).loc main_arg1)) p)
      (pos_read _ _ (m ((c.tc : Thread nD τ).loc main_arg6)) e _)
  · -- the cap zero
    exact (broadcastInDim_scalar_apply _ _ _).trans ((constant_apply _ _).trans Ideal.ofBits_zero_f32)

set_option maxHeartbeats 4000000 in
/-- The second kernel's third operand: the column words, one per row. -/
theorem v41_eq (c : Dev nD) : (V3 m ρ c main_v41 : S393216x1.Idx → BitVec 32)
    = fun i => (m ((c.tc : Thread nD τ).loc main_arg6) : S393216.Idx → BitVec 32) (ix1 (i 0)) := by
  show StableHlo.after hostOps1 (W2 m ρ c) (Proc.devRef .tc main_v41) = _
  after_results_simp
  rw [W2_arg m ρ c main_arg6 (by decide) (by decide) (by decide)]
  funext i
  obtain ⟨e, u, rfl⟩ : ∃ e u, i = ix2 e u := ⟨i 0, i 1, eq_ix2 i⟩
  exact shapeCast_a_a1_apply _ _ e u

end Cert.KernelIdeal.Hand

end
-- ==== Proof.Math.lean ====
/-
  The two laws that join the programs.

  (1) Numbering: the edges listed half by half, tile by tile, position by position are all the edges, once each.
  (2) Over real inputs, dividing every edge's weight by its column's total weight and then summing the weighted
      hidden rows gives the same row as summing first and dividing once; and because an edge's score never
      exceeds its column's largest score, capping the shift at zero changes nothing.
-/
import proofs.«417629_j27702539059750_3_alg».proof.Proof.Spec
import proofs.«417629_j27702539059750_3_alg».proof.Proof.KSpec
import Mathlib.Analysis.SpecialFunctions.Exp
import Mathlib.Tactic.Ring
import Mathlib.Tactic.Linarith
import Mathlib.Tactic.Positivity

noncomputable section

open scoped BigOperators

namespace Cert.Math

open Idealize.ShloMosaic Idealize.ShloMosaic.ValueIdx Cert.Spec Cert.KSpec

/-- The position triple of an edge and back: quotient and remainder by 512, then by 384. -/
private def edgeEquiv : Fin 2 × Fin 384 × Fin 512 ≃ Fin 393216 where
  toFun p := edgeOf p.1 p.2.1 p.2.2
  invFun e := (⟨e.val / 196608, by have := e.isLt; omega⟩, ⟨e.val / 512 % 384, Nat.mod_lt _ (by norm_num)⟩,
    ⟨e.val % 512, Nat.mod_lt _ (by norm_num)⟩)
  left_inv := by
    rintro ⟨g, t, q⟩
    have hg := g.isLt; have ht := t.isLt; have hq := q.isLt
    refine Prod.ext (Fin.ext ?_) (Prod.ext (Fin.ext ?_) (Fin.ext ?_))
    · show ((g.val * 384 + t.val) * 512 + q.val) / 196608 = g.val
      omega
    · show ((g.val * 384 + t.val) * 512 + q.val) / 512 % 384 = t.val
      omega
    · show ((g.val * 384 + t.val) * 512 + q.val) % 512 = q.val
      omega
  right_inv := by
    intro e
    have he := e.isLt
    apply Fin.ext
    show (e.val / 196608 * 384 + e.val / 512 % 384) * 512 + e.val % 512 = e.val
    omega

/-- Summing over halves, tiles and positions is summing over edges. -/
theorem sum_edges {M : Type*} [AddCommMonoid M] (f : Fin 393216 → M) :
    ∑ g : Fin 2, ∑ t : Fin 384, ∑ q : Fin 512, f (edgeOf g t q) = ∑ e : Fin 393216, f e := by
  rw [← Fintype.sum_equiv edgeEquiv (fun p => f (edgeOf p.1 p.2.1 p.2.2)) f (fun _ => rfl)]
  rw [Fintype.sum_prod_type]
  refine Finset.sum_congr rfl fun g _ => ?_
  rw [Fintype.sum_prod_type]

/-- A finite sum of reals, read as an extended real, is the sum of the terms read as extended reals. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real tables every score is a real number. -/
private theorem score_real (x y : Mat) (hx : FiniteMat x) (hy : FiniteMat y) :
    ∃ s : Fin 12288 → Fin 12288 → ℝ, ∀ r c, score x y r c = (s r c : EReal) := by
  choose xr hxr using hx
  choose yr hyr using hy
  refine ⟨fun r c => (∑ k : Fin 64, xr (ix2 r k) * yr (ix2 c k)) * (1 / 8), fun r c => ?_⟩
  unfold score eighth
  rw [EReal.coe_mul, coe_sum]
  congr 1
  refine Finset.sum_congr rfl fun k _ => ?_
  rw [hxr, hyr, EReal.coe_mul]

/-- A total that is a real number, with zero replaced by one, is a nonzero real number. -/
private theorem oneIfZero_coe (t : ℝ) : ∃ d : ℝ, d ≠ 0 ∧ oneIfZero (t : EReal) = (d : EReal) := by
  unfold oneIfZero
  by_cases ht : t = 0
  · refine ⟨1, one_ne_zero, ?_⟩
    rw [if_pos (by rw [ht]; rfl)]; rfl
  · refine ⟨t, ht, ?_⟩
    rw [if_neg (by exact_mod_cast ht)]

/-- Over real inputs every edge weight is a real number, and capping the shift at zero does not change it:
    a column's largest score is one of its scores, so it is real and no score of the column exceeds it. -/
private theorem weights_real (x y : Mat) (vals : Vals) (rows cols : Words)
    (hx : FiniteMat x) (hy : FiniteMat y) (hv : FiniteVals vals) :
    ∃ w : Fin 393216 → ℝ, (∀ e, wRaw x y vals rows cols e = (w e : EReal)) ∧
      (∀ e, wCap x y vals rows cols e = (w e : EReal)) := by
  obtain ⟨s, hs⟩ := score_real x y hx hy
  choose vr hvr using hv
  have hm : ∀ c, ∃ m : ℝ, colMax x y c = (m : EReal) ∧ ∀ r, s r c ≤ m := by
    intro c
    obtain ⟨r₀, -, h₀⟩ := Finset.exists_mem_eq_sup (Finset.univ : Finset (Fin 12288)) Finset.univ_nonempty
      (fun r => score x y r c)
    refine ⟨s r₀ c, ?_, fun r => ?_⟩
    · unfold colMax; rw [h₀, hs]
    · have hle : score x y r c ≤ score x y r₀ c := by
        rw [← h₀]; exact Finset.le_sup (f := fun r => score x y r c) (Finset.mem_univ r)
      rw [hs, hs] at hle; exact_mod_cast hle
  choose m hm1 hm2 using hm
  have hshift : ∀ e, shift x y rows cols e
      = ((s (pos (rows (ix1 e))) (pos (cols (ix1 e))) - m (pos (cols (ix1 e))) : ℝ) : EReal) := by
    intro e; unfold shift; rw [hs, hm1, EReal.coe_sub]
  refine ⟨fun e => Real.exp ((s (pos (rows (ix1 e))) (pos (cols (ix1 e))) - m (pos (cols (ix1 e)))) * vr (ix1 e)),
    fun e => ?_, fun e => ?_⟩
  · unfold wRaw; rw [hshift, hvr, ← EReal.coe_mul]; rfl
  · unfold wCap
    have hle : shift x y rows cols e ≤ 0 := by
      rw [hshift]; exact_mod_cast sub_nonpos.mpr (hm2 _ _)
    rw [min_eq_left hle, hshift, hvr, ← EReal.coe_mul]; rfl

/-- Over real inputs the two orders of dividing and summing agree. -/
theorem divide_sum_comm (x y h p : Mat) (vals : Vals) (rows cols : Words)
    (hx : FiniteMat x) (hy : FiniteMat y) (hh : FiniteMat h) (hv : FiniteVals vals) (c : Fin 12288) (k : Fin 64) :
    divideThenSum x y h p vals rows cols c k = sumThenDivide x y h p vals rows cols c k := by
  obtain ⟨w, hwR, hwC⟩ := weights_real x y vals rows cols hx hy hv
  choose hr hhr using hh
  unfold divideThenSum sumThenDivide
  refine congrArg (fun z => z + p (ix2 c k)) ?_
  -- an edge of column `c` looks up column `c`
  have hpos : ∀ e ∈ hit cols c, pos (cols (ix1 e)) = c := by
    intro e he
    unfold hit at he
    rw [Finset.mem_filter] at he
    rw [he.2]; exact pos_of_word c
  have hT : (∑ e ∈ hit cols c, wRaw x y vals rows cols e) = ((∑ e ∈ hit cols c, w e : ℝ) : EReal) := by
    rw [coe_sum]; exact Finset.sum_congr rfl fun e _ => hwR e
  have hTC : (∑ e ∈ hit cols c, wCap x y vals rows cols e) = ((∑ e ∈ hit cols c, w e : ℝ) : EReal) := by
    rw [coe_sum]; exact Finset.sum_congr rfl fun e _ => hwC e
  obtain ⟨d, hd, hD⟩ := oneIfZero_coe (∑ e ∈ hit cols c, w e)
  have hL : ∀ e ∈ hit cols c,
      Ideal.div (wRaw x y vals rows cols e)
          (oneIfZero (∑ e' ∈ hit cols (pos (cols (ix1 e))), wRaw x y vals rows cols e'))
        * h (ix2 (pos (rows (ix1 e))) k)
      = ((w e * (1 / d) * hr (ix2 (pos (rows (ix1 e))) k) : ℝ) : EReal) := by
    intro e he
    rw [hpos e he, hT, hD, Ideal.div_coe hd, hwR, hhr, ← EReal.coe_mul, ← EReal.coe_mul]
  have hN : (∑ e ∈ hit cols c, wCap x y vals rows cols e * h (ix2 (pos (rows (ix1 e))) k))
      = ((∑ e ∈ hit cols c, w e * hr (ix2 (pos (rows (ix1 e))) k) : ℝ) : EReal) := by
    rw [coe_sum]
    refine Finset.sum_congr rfl fun e _ => ?_
    rw [hwC, hhr, EReal.coe_mul]
  rw [Finset.sum_congr rfl hL, ← coe_sum, hN, hTC, hD, Ideal.div_coe hd, ← EReal.coe_mul]
  refine congrArg (fun z : ℝ => (z : EReal)) ?_
  rw [Finset.sum_mul]
  refine Finset.sum_congr rfl fun e _ => ?_
  ring

end Cert.Math

end
-- ==== Proof.KernelTail.lean ====
/-
  The host lines after the second kernel, and the kernel program's result as a whole: the two halves'
  accumulators are added; lanes 0…63 are the weighted hidden sums and lane 64 the total weight of the column; a
  zero total is replaced by one; the quotient plus the parent row is the result.
-/
import proofs.«417629_j27702539059750_3_alg».proof.Proof.Gen.KernelIdeal.Frame
import proofs.«417629_j27702539059750_3_alg».proof.Proof.Spec
import proofs.«417629_j27702539059750_3_alg».proof.Proof.KSpec
import proofs.«417629_j27702539059750_3_alg».proof.Proof.Region1
import proofs.«417629_j27702539059750_3_alg».proof.Proof.KernelHost
import proofs.«417629_j27702539059750_3_alg».proof.Proof.Math
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Stages
variable (Wv : Valuation τ sig (Elt Ideal))

/-- The two halves' accumulators added. -/
abbrev halves (O : S2x12288x128.Idx → EReal) : S12288x128.Idx → EReal :=
  addf (F := Ideal) (φ := .f32) (shapeCast S12288x128 (extractStridedSlice S1x12288x128 ![0, 0, 0] O slices_S2x12288x128_S1x12288x128_0_0_0) shapeCasts_S1x12288x128_S12288x128)
    (shapeCast S12288x128 (extractStridedSlice S1x12288x128 ![1, 0, 0] O slices_S2x12288x128_S1x12288x128_1_0_0) shapeCasts_S1x12288x128_S12288x128)

theorem stage2_v48 : (StableHlo.after (hostOps2 (F := Ideal)) Wv (Proc.devRef .tc main_v48) : S12288x64.Idx → EReal)
    = extractStridedSlice S12288x64 ![0, 0] (halves (Wv (Proc.devRef .tc main_v42))) slices_S12288x128_S12288x64_0_0 := by
  after_results; rfl

theorem stage2_v49 : (StableHlo.after (hostOps2 (F := Ideal)) Wv (Proc.devRef .tc main_v49) : S12288x1.Idx → EReal)
    = extractStridedSlice S12288x1 ![0, 64] (halves (Wv (Proc.devRef .tc main_v42))) slices_S12288x128_S12288x1_0_64 := by
  after_results; rfl

theorem stage2_v51 : (StableHlo.after (hostOps2 (F := Ideal)) Wv (Proc.devRef .tc main_v51) : S12288x1.Idx → BitVec 1)
    = cmpf .oeq (extractStridedSlice S12288x1 ![0, 64] (halves (Wv (Proc.devRef .tc main_v42))) slices_S12288x128_S12288x1_0_64)
        (broadcastInDim S12288x1 ![] bcast_S_S12288x1 (constant (F := Ideal) S_ .f32 0x00000000#32)) := by
  after_results; rfl

theorem stage2_cst10 : (StableHlo.after (hostOps2 (F := Ideal)) Wv (Proc.devRef .tc main_cst_10) : S_.Idx → EReal)
    = constant (F := Ideal) S_ .f32 0x3F800000#32 := by
  after_results

theorem stage2_arg3 : StableHlo.after (hostOps2 (F := Ideal)) Wv (Proc.devRef .tc main_arg3) = Wv (Proc.devRef .tc main_arg3) := by
  after_results

theorem stage21_v52 : (StableHlo.after (hostOps2_1 (F := Ideal)) Wv (Proc.devRef .tc main_v52) : S12288x1.Idx → EReal)
    = select (Wv (Proc.devRef .tc main_v51)) (broadcastInDim S12288x1 ![] bcast_S_S12288x1 (Wv (Proc.devRef .tc main_cst_10)))
        (Wv (Proc.devRef .tc main_v49)) := by
  after_results; rfl

theorem stage21_v48 : StableHlo.after (hostOps2_1 (F := Ideal)) Wv (Proc.devRef .tc main_v48) = Wv (Proc.devRef .tc main_v48) := by
  after_results

theorem stage21_arg3 : StableHlo.after (hostOps2_1 (F := Ideal)) Wv (Proc.devRef .tc main_arg3) = Wv (Proc.devRef .tc main_arg3) := by
  after_results

theorem stage22_v55 : (StableHlo.after (hostOps2_2 (F := Ideal)) Wv (Proc.devRef .tc main_v55) : S12288x64.Idx → EReal)
    = addf (F := Ideal) (φ := .f32) (Host.divf (F := Ideal) (φ := .f32) (Wv (Proc.devRef .tc main_v48))
        (broadcastInDim S12288x64 ![0, 1] bcast_S12288x1_S12288x64_0_1 (Wv (Proc.devRef .tc main_v52)))) (Wv (Proc.devRef .tc main_arg3)) := by
  after_results

theorem stage22_arg3 : StableHlo.after (hostOps2_2 (F := Ideal)) Wv (Proc.devRef .tc main_arg3) = Wv (Proc.devRef .tc main_arg3) := by
  after_results

end Stages

/-- The added halves at column `cc`, lane `j`. -/
theorem halves_apply (O : S2x12288x128.Idx → EReal) (cc : Fin 12288) (j : Fin 128) :
    halves O (ix2 cc j) = O (ix3 (0 : Fin 2) cc j) + O (ix3 (1 : Fin 2) cc j) := by
  show shapeCast S12288x128 _ _ (ix2 cc j) + shapeCast S12288x128 _ _ (ix2 cc j) = _
  rw [shapeCast_1ab_ab_apply, shapeCast_1ab_ab_apply]
  congr 1
  · exact extractStridedSlice_apply _ _ _ _ (ix3 (0 : Fin 2) cc j) (fun a => by
      match a with
      | ⟨0, _⟩ => rfl
      | ⟨1, _⟩ => exact (Nat.zero_add _).symm
      | ⟨2, _⟩ => exact (Nat.zero_add _).symm)
  · exact extractStridedSlice_apply _ _ _ _ (ix3 (1 : Fin 2) cc j) (fun a => by
      match a with
      | ⟨0, _⟩ => rfl
      | ⟨1, _⟩ => exact (Nat.zero_add _).symm
      | ⟨2, _⟩ => exact (Nat.zero_add _).symm)

/-- A one-column array spread over 64 columns reads its column's entry. -/
theorem spread_apply (v : S12288x1.Idx → EReal) (cc : Fin 12288) (k : Fin 64) :
    broadcastInDim S12288x64 ![0, 1] bcast_S12288x1_S12288x64_0_1 v (ix2 cc k) = v (ix2 cc (0 : Fin 1)) :=
  broadcastInDim_apply _ _ _ _ (ix2 cc (0 : Fin 1)) (fun a => by
    match a with
    | ⟨0, _⟩ =>
      show cc.val = if (12288 : ℕ) = 1 then 0 else cc.val
      rw [if_neg (by norm_num)]
    | ⟨1, _⟩ =>
      show (0 : ℕ) = if (1 : ℕ) = 1 then 0 else k.val
      rw [if_pos rfl])

/-- A scalar spread over a column reads the scalar. -/
theorem splat_apply (v : S_.Idx → EReal) (i : S12288x1.Idx) :
    broadcastInDim S12288x1 ![] bcast_S_S12288x1 v i = v (fun a => a.elim0) := by
  unfold broadcastInDim
  congr 1
  funext a
  exact a.elim0

open Classical in
/-- "Where the total is zero take one" at an entry. -/
theorem where_apply (d : S12288x1.Idx → EReal) (i : S12288x1.Idx) :
    select (cmpf (F := Ideal) .oeq d (broadcastInDim S12288x1 ![] bcast_S_S12288x1 (constant (F := Ideal) S_ .f32 0x00000000#32)))
      (broadcastInDim S12288x1 ![] bcast_S_S12288x1 (constant (F := Ideal) S_ .f32 0x3F800000#32)) d i
      = Cert.Spec.oneIfZero (d i) := by
  show Scalar.select (Ideal.cmp .oeq (d i) (broadcastInDim S12288x1 ![] bcast_S_S12288x1 (constant (F := Ideal) S_ .f32 0x00000000#32) i))
      (broadcastInDim S12288x1 ![] bcast_S_S12288x1 (constant (F := Ideal) S_ .f32 0x3F800000#32) i) (d i) = _
  rw [splat_apply, splat_apply]
  show Scalar.select (Ideal.cmp .oeq (d i) (Ideal.ofBits .f32 0x00000000#32)) (Ideal.ofBits .f32 0x3F800000#32) (d i) = _
  rw [Ideal.ofBits_zero_f32, Cert.Spec.ofBits_one]
  unfold Cert.Spec.oneIfZero Scalar.select Ideal.cmp
  by_cases h : d i = 0
  · simp [h]
  · simp [h]

/-- The host lines after the second kernel, read at an entry, from any contents before them. -/
theorem tail_read (Wv : Valuation τ sig (Elt Ideal)) (cc : Fin 12288) (k : Fin 64) :
    (StableHlo.after (hostOps2_2 (F := Ideal)) (StableHlo.after (hostOps2_1 (F := Ideal)) (StableHlo.after (hostOps2 (F := Ideal)) Wv))
        (Proc.devRef .tc main_v55) : S12288x64.Idx → EReal) (ix2 cc k)
      = Ideal.div (halves (Wv (Proc.devRef .tc main_v42)) (ix2 cc (⟨k.val, by have := k.isLt; omega⟩ : Fin 128)))
          (Cert.Spec.oneIfZero (halves (Wv (Proc.devRef .tc main_v42)) (ix2 cc (⟨64, by decide⟩ : Fin 128))))
        + (Wv (Proc.devRef .tc main_arg3) : S12288x64.Idx → EReal) (ix2 cc k) := by
  rw [stage22_v55, stage21_v48, stage21_v52, stage21_arg3, stage2_v48, stage2_v49, stage2_v51, stage2_cst10, stage2_arg3]
  show Ideal.div (extractStridedSlice (s := S12288x128) S12288x64 ![0, 0] _ _ (ix2 cc k)) (broadcastInDim S12288x64 _ bcast_S12288x1_S12288x64_0_1 _ (ix2 cc k)) + _ = _
  rw [spread_apply, where_apply]
  congr 2
  · exact extractStridedSlice_apply _ _ _ _ _ (fun a => by
      match a with
      | ⟨0, _⟩ => exact (Nat.zero_add _).symm
      | ⟨1, _⟩ => exact (Nat.zero_add _).symm)
  · congr 1
    exact extractStridedSlice_apply _ _ _ _ _ (fun a => by
      match a with
      | ⟨0, _⟩ => exact (Nat.zero_add _).symm
      | ⟨1, _⟩ => rfl)

/-- The two halves' accumulators added: the rows of ALL the edges whose column word is the column. -/
theorem halves_scat (hg : S393216x64.Idx → EReal) (se : S393216x1.Idx → EReal) (cols : S393216x1.Idx → BitVec 32)
    (cc : Fin 12288) (j : Fin 128) :
    halves (fun i => Cert.KSpec.scat hg se cols (i 0) (i 1) (i 2)) (ix2 cc j)
      = ∑ e ∈ Finset.univ.filter (fun e : Fin 393216 => cols (ix2 e (0 : Fin 1)) = BitVec.ofNat 32 cc.val),
          Cert.KSpec.contrib hg se e j := by
  rw [halves_apply]
  show Cert.KSpec.scat hg se cols 0 cc j + Cert.KSpec.scat hg se cols 1 cc j = _
  rw [Finset.sum_filter, ← Cert.Math.sum_edges, Fin.sum_univ_two]
  rfl

variable (m : (ℓ : Loc nD τ sig) → Buf (Elt Ideal) ℓ) (ρ : Dev nD → PrngReg)

/-- The result buffer's final contents: sum the weighted hidden rows of a column's edges, divide by the column's
    total weight, add the parent row. -/
theorem kernel_value (c : Dev nD) :
    (W7 (F := Ideal) m ρ c (Proc.devRef .tc main_v55) : S12288x64.Idx → EReal)
      = fun i => Cert.Spec.sumThenDivide (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (i 0) (i 1) := by
  funext i
  obtain ⟨cc, k, rfl⟩ : ∃ (cc : Fin 12288) (k : Fin 64), i = ix2 cc k := ⟨i 0, i 1, eq_ix2 i⟩
  refine (tail_read (W4 m ρ c) cc k).trans ?_
  have hO : @Eq (S2x12288x128.Idx → EReal) (W4 m ρ c (Proc.devRef .tc main_v42))
      (fun j : S2x12288x128.Idx => Cert.KSpec.scat (V3 m ρ c main_v24) (V3 m ρ c main_v40) (V3 m ρ c main_v41) (j 0) (j 1) (j 2)) :=
    (W4_arr m ρ c 3).trans (region1_arr (V3 m ρ) c)
  have hp : @Eq (S12288x64.Idx → EReal) (W4 m ρ c (Proc.devRef .tc main_arg3)) (m ((c.tc : Thread nD τ).loc main_arg3)) := by
    rw [← stage2_arg3 (W4 m ρ c), ← stage21_arg3 (StableHlo.after hostOps2 (W4 m ρ c)),
      ← stage22_arg3 (StableHlo.after hostOps2_1 (StableHlo.after hostOps2 (W4 m ρ c)))]
    exact W7_main_arg3 m ρ c
  rw [show halves (W4 m ρ c (Proc.devRef .tc main_v42))
      = halves (fun j : S2x12288x128.Idx => Cert.KSpec.scat (V3 m ρ c main_v24) (V3 m ρ c main_v40) (V3 m ρ c main_v41) (j 0) (j 1) (j 2))
      from congrArg halves hO, hp, halves_scat, halves_scat, v24_eq, v40_eq, v41_eq]
  unfold Cert.Spec.sumThenDivide
  refine congrArg₂ (fun a b : EReal => a + b) (congrArg₂ Ideal.div ?_ (congrArg Cert.Spec.oneIfZero ?_)) rfl
  · refine Finset.sum_congr rfl fun e _ => ?_
    unfold Cert.KSpec.contrib
    rw [dif_pos (show (⟨k.val, _⟩ : Fin 128).val < 64 from k.isLt)]
    rfl
  · refine Finset.sum_congr rfl fun e _ => ?_
    unfold Cert.KSpec.contrib
    rw [dif_neg (show ¬ (⟨64, _⟩ : Fin 128).val < 64 from by decide), if_pos rfl]
    rfl

end Cert.KernelIdeal.Hand

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.RefValue.lean ====
/-
  The reference program's result, read at an index: the dense score table, its column maxima, each edge's
  weight, the per-column totals by a segment sum, each weight divided by its column's total, and the segment sum
  of the weighted hidden rows, plus the parent row.
-/
import proofs.«417629_j27702539059750_3_alg».proof.Proof.Gen.ReferenceIdeal.Run
import proofs.«417629_j27702539059750_3_alg».proof.Proof.Gen.ReferenceIdeal.Read
import proofs.«417629_j27702539059750_3_alg».proof.Proof.Spec
import proofs.«417629_j27702539059750_3_alg».proof.Proof.LibGather
import proofs.«417629_j27702539059750_3_alg».proof.Proof.LibScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem

open Cert.ReferenceIdeal.Read

/-! ## The score table and its column maxima -/

/-- The dense table at `(r, c)`: the inner product of row `r` of `x` and row `c` of `y`, divided by `√64`. -/
private theorem table_read (x0 x1 : Cert.Spec.Mat) (r c : Fin 12288) :
    val_main_v4 (F := Ideal) x0 x1 (ix2 r c) = Cert.Spec.score x0 x1 r c := by
  rw [val_main_v4_apply, val_main_v1_apply, val_main_v3_apply, val_main_v2_apply, val_main_cst_apply]
  rw [Ideal.hostDivf_def, Ideal.hostUnary_sqrt_def, Ideal.ofBits_def, Cert.Spec.ofBits_sixtyfour,
    Cert.Spec.div_sqrt_sixtyfour]
  unfold Cert.Spec.score
  congr 1
  refine Finset.sum_congr rfl fun k _ => ?_
  rw [val_main_v0_apply]
  have e1 : lidx_main_v1 (ix2 r c) k = ix2 r k :=
    funext fun a => Fin.ext (by match a with | ⟨0, _⟩ => rfl | ⟨1, _⟩ => rfl)
  have e2 : idx_main_v0 (ridx_main_v1 (ix2 r c) k) = ix2 c k :=
    funext fun a => Fin.ext (by match a with | ⟨0, _⟩ => rfl | ⟨1, _⟩ => rfl)
  rw [e1, e2]

/-- The maximum over the rows, at column `c`: the column's largest score. -/
private theorem colmax_read (x0 x1 : Cert.Spec.Mat) (c : Fin 12288) :
    val_main_v5 (F := Ideal) x0 x1 (ix1 c) = Cert.Spec.colMax x0 x1 c := by
  unfold val_main_v5
  refine (Cert.LibScatter.reduce_max_rows (val_main_v4 (F := Ideal) x0 x1) (val_main_cst_0 (F := Ideal))
    (fun i => Cert.Spec.ofBits_neg_inf) reducesTo_S12288x12288_S12288_d0 h_S_ c).trans ?_
  unfold Cert.Spec.colMax
  congr 1
  funext r
  exact table_read x0 x1 r c

/-! ## The index words -/

/-- The normalised row words. -/
private theorem rows_nrm (x5 : Cert.Spec.Words) (i : S393216.Idx) :
    val_main_v10 (F := Ideal) x5 i = Cert.Spec.nrm (x5 i) := by
  unfold val_main_v10 val_main_v7 val_main_v9 val_main_v6 val_main_v8 val_main_c val_main_c_1
  exact Cert.LibGather.nrm_read bcast_S_S393216 x5 i

/-- The normalised column words (the table's second coordinate). -/
private theorem cols_nrm (x6 : Cert.Spec.Words) (i : S393216.Idx) :
    val_main_v15 (F := Ideal) x6 i = Cert.Spec.nrm (x6 i) := by
  unfold val_main_v15 val_main_v12 val_main_v14 val_main_v11 val_main_v13 val_main_c_2 val_main_c_3
  exact Cert.LibGather.nrm_read bcast_S_S393216 x6 i

/-- The normalised column words (the maxima's look-up). -/
private theorem cols_nrm' (x6 : Cert.Spec.Words) (i : S393216.Idx) :
    val_main_v24 (F := Ideal) x6 i = Cert.Spec.nrm (x6 i) := by
  unfold val_main_v24 val_main_v21 val_main_v23 val_main_v20 val_main_v22 val_main_c_4 val_main_c_5
  exact Cert.LibGather.nrm_read bcast_S_S393216 x6 i

/-- The normalised column words (the totals' look-up). -/
private theorem cols_nrm'' (x6 : Cert.Spec.Words) (i : S393216.Idx) :
    val_main_v40 (F := Ideal) x6 i = Cert.Spec.nrm (x6 i) := by
  unfold val_main_v40 val_main_v37 val_main_v39 val_main_v36 val_main_v38 val_main_c_9 val_main_c_10
  exact Cert.LibGather.nrm_read bcast_S_S393216 x6 i

/-- The normalised row words (the hidden rows' look-up). -/
private theorem rows_nrm' (x5 : Cert.Spec.Words) (i : S393216.Idx) :
    val_main_v49 (F := Ideal) x5 i = Cert.Spec.nrm (x5 i) := by
  unfold val_main_v49 val_main_v46 val_main_v48 val_main_v45 val_main_v47 val_main_c_11 val_main_c_12
  exact Cert.LibGather.nrm_read bcast_S_S393216 x5 i

/-- The two-column index array: at `(e, 0)` the row word, at `(e, 1)` the column word, both normalised. -/
private theorem pair_left (x5 x6 : Cert.Spec.Words) (e : Fin 393216) :
    val_main_v18 (F := Ideal) x5 x6 (ix2 e (0 : Fin 2)) = Cert.Spec.nrm (x5 (ix1 e)) := by
  unfold val_main_v18
  refine (concatenate_pair_apply_left (1 : Fin S393216x2.rank) (val_main_v16 (F := Ideal) x5) (val_main_v17 (F := Ideal) x6)
    concatenates_S393216x1_S393216x1_S393216x2_d1 (ix2 e (0 : Fin 2)) rfl (ix2 e (0 : Fin 1))
    (fun b => by match b with | ⟨0, _⟩ => rfl | ⟨1, _⟩ => rfl)).trans ?_
  unfold val_main_v16
  rw [Cert.LibGather.bcast_col_read, rows_nrm]

private theorem pair_right (x5 x6 : Cert.Spec.Words) (e : Fin 393216) :
    val_main_v18 (F := Ideal) x5 x6 (ix2 e (1 : Fin 2)) = Cert.Spec.nrm (x6 (ix1 e)) := by
  unfold val_main_v18
  refine (concatenate_pair_apply_right (1 : Fin S393216x2.rank) (val_main_v16 (F := Ideal) x5) (val_main_v17 (F := Ideal) x6)
    concatenates_S393216x1_S393216x1_S393216x2_d1 (ix2 e (1 : Fin 2)) rfl rfl (ix2 e (0 : Fin 1))
    (fun b hb => by
      match b with
      | ⟨0, _⟩ => rfl
      | ⟨1, _⟩ => exact absurd rfl hb) rfl).trans ?_
  unfold val_main_v17
  rw [Cert.LibGather.bcast_col_read, cols_nrm]

/-! ## Each edge's weight -/

/-- The table's entry an edge looks up: the score of its row and column. -/
private theorem edge_score (x0 x1 : Cert.Spec.Mat) (x5 x6 : Cert.Spec.Words) (e : Fin 393216) :
    val_main_v19 (F := Ideal) x0 x1 x5 x6 (ix1 e)
      = Cert.Spec.score x0 x1 (Cert.Spec.pos (x5 (ix1 e))) (Cert.Spec.pos (x6 (ix1 e))) := by
  unfold val_main_v19
  refine (Cert.LibGather.gather_pair_apply gather_S12288x12288_S393216x2_S393216_n_01_n_n_01_1_11 rfl rfl rfl rfl rfl rfl
    (val_main_v4 (F := Ideal) x0 x1) (val_main_v18 (F := Ideal) x5 x6) e (by decide) (by decide)).trans ?_
  rw [table_read]
  simp only [pair_left, pair_right]
  rfl

/-- The column of normalised column words the maxima are looked up by. -/
private theorem colmax_word (x6 : Cert.Spec.Words) (e : Fin 393216) :
    val_main_v25 (F := Ideal) x6 (ix2 e (0 : Fin 1)) = Cert.Spec.nrm (x6 (ix1 e)) := by
  unfold val_main_v25
  rw [Cert.LibGather.bcast_col_read, cols_nrm']

/-- The column maximum an edge looks up. -/
private theorem edge_colmax (x0 x1 : Cert.Spec.Mat) (x6 : Cert.Spec.Words) (e : Fin 393216) :
    val_main_v26 (F := Ideal) x0 x1 x6 (ix1 e) = Cert.Spec.colMax x0 x1 (Cert.Spec.pos (x6 (ix1 e))) := by
  unfold val_main_v26
  refine (Cert.LibGather.gather_vec_apply gather_S12288_S393216x1_S393216_n_0_n_n_0_1_1 rfl rfl rfl rfl
    (val_main_v5 (F := Ideal) x0 x1) (val_main_v25 (F := Ideal) x6) e (by decide)).trans ?_
  rw [colmax_read]
  simp only [colmax_word]
  rfl

/-- An edge's weight: `exp` of its shifted score times its edge value. -/
private theorem weight_read (x0 x1 : Cert.Spec.Mat) (x4 : Cert.Spec.Vals) (x5 x6 : Cert.Spec.Words) (e : Fin 393216) :
    val_main_v29 (F := Ideal) x0 x1 x4 x5 x6 (ix1 e) = Cert.Spec.wRaw x0 x1 x4 x5 x6 e := by
  rw [val_main_v29_apply, val_main_v28_apply, val_main_v27_apply, edge_score, edge_colmax]
  rfl

/-! ## The column totals and each edge's share -/

/-- The segment sum of the weights at column `c`: the total weight of the edges whose column word is `c`. -/
private theorem total_read (x0 x1 : Cert.Spec.Mat) (x4 : Cert.Spec.Vals) (x5 x6 : Cert.Spec.Words) (c : Fin 12288) :
    val_main_v32 (F := Ideal) x0 x1 x4 x5 x6 (ix1 c)
      = ∑ e ∈ Cert.Spec.hit x6 c, Cert.Spec.wRaw x0 x1 x4 x5 x6 e := by
  unfold val_main_v32
  refine (Cert.LibScatter.scatterAdd_vec_read scatter_S12288_S393216x1_S393216_n_0_0_1 rfl rfl rfl rfl
    (val_main_v30 (F := Ideal)) (val_main_v31 (F := Ideal) x6) (val_main_v29 (F := Ideal) x0 x1 x4 x5 x6) c).trans ?_
  rw [val_main_v30_apply, val_main_cst_6_apply, Ideal.ofBits_def, Ideal.ofBits_zero_f32, zero_add]
  have hf : (Finset.univ.filter fun e : Fin 393216 =>
      (val_main_v31 (F := Ideal) x6 (ix2 e (0 : Fin 1))).toInt = (c.val : ℤ)) = Cert.Spec.hit x6 c := by
    unfold Cert.Spec.hit
    refine Finset.filter_congr fun e _ => ?_
    unfold val_main_v31
    rw [Cert.LibGather.bcast_col_read]
    exact (Cert.Spec.word_eq_iff _ c).symm
  rw [hf]
  exact Finset.sum_congr rfl fun e _ => weight_read x0 x1 x4 x5 x6 e

/-- Comparing with zero and selecting one: a zero total is replaced by one. -/
private theorem select_oeq_zero (d : EReal) :
    Scalar.select (Ideal.cmp .oeq d 0) (1 : EReal) d = Cert.Spec.oneIfZero d := by
  unfold Cert.Spec.oneIfZero
  by_cases h : d = 0
  · rw [if_pos h]
    have hb : Ideal.cmp .oeq d 0 = 1#1 := by unfold Ideal.cmp; simp [h]
    rw [hb, select_one]
  · rw [if_neg h]
    have hb : Ideal.cmp .oeq d 0 = 0#1 := by unfold Ideal.cmp; simp [h]
    rw [hb, select_zero]

/-- The divisor at column `c`: the total, or one when the total is zero. -/
private theorem denom_read (x0 x1 : Cert.Spec.Mat) (x4 : Cert.Spec.Vals) (x5 x6 : Cert.Spec.Words) (c : Fin 12288) :
    val_main_v35 (F := Ideal) x0 x1 x4 x5 x6 (ix1 c)
      = Cert.Spec.oneIfZero (∑ e ∈ Cert.Spec.hit x6 c, Cert.Spec.wRaw x0 x1 x4 x5 x6 e) := by
  rw [val_main_v35_apply, val_main_v34_apply, val_main_call0_v1_apply, val_main_call0_v0_apply, val_main_cst_8_apply,
    val_main_v33_apply, val_main_cst_7_apply, total_read]
  rw [Ideal.cmpf_def, Ideal.ofBits_def, Ideal.ofBits_def, Ideal.ofBits_zero_f32, Cert.Spec.ofBits_one]
  exact select_oeq_zero _

/-- The column of normalised column words the divisors are looked up by. -/
private theorem denom_word (x6 : Cert.Spec.Words) (e : Fin 393216) :
    val_main_v41 (F := Ideal) x6 (ix2 e (0 : Fin 1)) = Cert.Spec.nrm (x6 (ix1 e)) := by
  unfold val_main_v41
  rw [Cert.LibGather.bcast_col_read, cols_nrm'']

/-- The divisor an edge looks up: that of the column its word names. -/
private theorem edge_denom (x0 x1 : Cert.Spec.Mat) (x4 : Cert.Spec.Vals) (x5 x6 : Cert.Spec.Words) (e : Fin 393216) :
    val_main_v42 (F := Ideal) x0 x1 x4 x5 x6 (ix1 e)
      = Cert.Spec.oneIfZero (∑ e' ∈ Cert.Spec.hit x6 (Cert.Spec.pos (x6 (ix1 e))), Cert.Spec.wRaw x0 x1 x4 x5 x6 e') := by
  unfold val_main_v42
  refine (Cert.LibGather.gather_vec_apply gather_S12288_S393216x1_S393216_n_0_n_n_0_1_1 rfl rfl rfl rfl
    (val_main_v35 (F := Ideal) x0 x1 x4 x5 x6) (val_main_v41 (F := Ideal) x6) e (by decide)).trans ?_
  rw [denom_read]
  simp only [denom_word]
  rfl

/-- An edge's share: its weight divided by its column's divisor. -/
private theorem share_read (x0 x1 : Cert.Spec.Mat) (x4 : Cert.Spec.Vals) (x5 x6 : Cert.Spec.Words) (e : Fin 393216) :
    val_main_v43 (F := Ideal) x0 x1 x4 x5 x6 (ix1 e)
      = Ideal.div (Cert.Spec.wRaw x0 x1 x4 x5 x6 e)
          (Cert.Spec.oneIfZero (∑ e' ∈ Cert.Spec.hit x6 (Cert.Spec.pos (x6 (ix1 e))), Cert.Spec.wRaw x0 x1 x4 x5 x6 e')) := by
  rw [val_main_v43_apply, weight_read, edge_denom]
  rfl

/-! ## The weighted hidden rows and their segment sum -/

/-- The column of normalised row words the hidden rows are looked up by. -/
private theorem hidden_word (x5 : Cert.Spec.Words) (e : Fin 393216) :
    val_main_v50 (F := Ideal) x5 (ix2 e (0 : Fin 1)) = Cert.Spec.nrm (x5 (ix1 e)) := by
  unfold val_main_v50
  rw [Cert.LibGather.bcast_col_read, rows_nrm']

/-- The hidden row an edge looks up, at feature `k`. -/
private theorem hidden_read (x2 : Cert.Spec.Mat) (x5 : Cert.Spec.Words) (e : Fin 393216) (k : Fin 64) :
    val_main_v51 (F := Ideal) x2 x5 (ix2 e k) = x2 (ix2 (Cert.Spec.pos (x5 (ix1 e))) k) := by
  unfold val_main_v51
  refine (Cert.LibGather.gather_rows_apply gather_S12288x64_S393216x1_S393216x64_1_0_n_n_0_1_164 rfl rfl rfl rfl rfl rfl
    x2 (val_main_v50 (F := Ideal) x5) e k (by decide)).trans ?_
  simp only [hidden_word]
  rfl

/-- An edge's update row at feature `k`: its share times its hidden row's feature. -/
private theorem update_read (x0 x1 x2 : Cert.Spec.Mat) (x4 : Cert.Spec.Vals) (x5 x6 : Cert.Spec.Words)
    (e : Fin 393216) (k : Fin 64) :
    val_main_v53 (F := Ideal) x0 x1 x2 x4 x5 x6 (ix2 e k)
      = Ideal.div (Cert.Spec.wRaw x0 x1 x4 x5 x6 e)
          (Cert.Spec.oneIfZero (∑ e' ∈ Cert.Spec.hit x6 (Cert.Spec.pos (x6 (ix1 e))), Cert.Spec.wRaw x0 x1 x4 x5 x6 e'))
        * x2 (ix2 (Cert.Spec.pos (x5 (ix1 e))) k) := by
  rw [val_main_v53_apply, val_main_v52_apply, val_main_v44_apply, hidden_read]
  have e1 : idx_main_v44 (idx_main_v52 (ix2 e k)) = ix1 e :=
    funext fun a => Fin.ext (by match a with | ⟨0, _⟩ => rfl)
  rw [e1, share_read]
  rfl

/-- The segment sum of the update rows at `(c, k)`. -/
private theorem rows_sum_read (x0 x1 x2 : Cert.Spec.Mat) (x4 : Cert.Spec.Vals) (x5 x6 : Cert.Spec.Words)
    (c : Fin 12288) (k : Fin 64) :
    val_main_v56 (F := Ideal) x0 x1 x2 x4 x5 x6 (ix2 c k)
      = ∑ e ∈ Cert.Spec.hit x6 c,
          Ideal.div (Cert.Spec.wRaw x0 x1 x4 x5 x6 e)
            (Cert.Spec.oneIfZero (∑ e' ∈ Cert.Spec.hit x6 (Cert.Spec.pos (x6 (ix1 e))), Cert.Spec.wRaw x0 x1 x4 x5 x6 e'))
          * x2 (ix2 (Cert.Spec.pos (x5 (ix1 e))) k) := by
  unfold val_main_v56
  refine (Cert.LibScatter.scatterAdd_rows_read scatter_S12288x64_S393216x1_S393216x64_1_0_0_1 rfl rfl rfl rfl
    (val_main_v54 (F := Ideal)) (val_main_v55 (F := Ideal) x6) (val_main_v53 (F := Ideal) x0 x1 x2 x4 x5 x6) c k).trans ?_
  rw [val_main_v54_apply, val_main_cst_13_apply, Ideal.ofBits_def, Ideal.ofBits_zero_f32, zero_add]
  have hf : (Finset.univ.filter fun e : Fin 393216 =>
      (val_main_v55 (F := Ideal) x6 (ix2 e (0 : Fin 1))).toInt = (c.val : ℤ)) = Cert.Spec.hit x6 c := by
    unfold Cert.Spec.hit
    refine Finset.filter_congr fun e _ => ?_
    unfold val_main_v55
    rw [Cert.LibGather.bcast_col_read]
    exact (Cert.Spec.word_eq_iff _ c).symm
  rw [hf]
  exact Finset.sum_congr rfl fun e _ => update_read x0 x1 x2 x4 x5 x6 e k

/-- The whole program at `(c, k)`. -/
private theorem result_read (x0 x1 x2 x3 : Cert.Spec.Mat) (x4 : Cert.Spec.Vals) (x5 x6 : Cert.Spec.Words)
    (c : Fin 12288) (k : Fin 64) :
    val_main_v57 (F := Ideal) x0 x1 x2 x3 x4 x5 x6 (ix2 c k) = Cert.Spec.divideThenSum x0 x1 x2 x3 x4 x5 x6 c k := by
  rw [val_main_v57_apply, rows_sum_read]
  rfl

variable (m : (ℓ : Loc nD τ sig) → Buf (Elt Ideal) ℓ)

/-- The reference's result: divide each edge's weight by its column's total, then sum the weighted hidden rows. -/
theorem ref_value (c : Dev nD) :
    (Cert.ReferenceIdeal.Value.res_main_v57 (F := Ideal) m c : S12288x64.Idx → EReal)
      = fun i => Cert.Spec.divideThenSum (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (i 0) (i 1) := by
  funext i
  obtain ⟨c', k, rfl⟩ : ∃ (c' : Fin 12288) (k : Fin 64), i = ix2 c' k := ⟨i 0, i 1, eq_ix2 i⟩
  rw [val_main_v57_eq]
  exact result_read _ _ _ _ _ _ _ c' k

end Cert.ReferenceIdeal.Hand

end
-- ==== Proof.Finite.lean ====
/-
  What the precondition gives: every entry of the four feature tables and every edge value is a real number.
-/
import proofs.«417629_j27702539059750_3_alg».proof.Defs
import proofs.«417629_j27702539059750_3_alg».proof.Proof.Gen.Pre_finite_inputs
import proofs.«417629_j27702539059750_3_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem

/-- The scalar shape has one index. -/
private instance : Subsingleton Cert.Pre_finite_inputs.S_.Idx := ⟨fun a b => funext fun d => d.elim0⟩

/-- The word `0x7F800000` is `+∞`. -/
private theorem ofBits_pos_inf : Ideal.ofBits .f32 0x7F800000#32 = (⊤ : EReal) := by
  simp [Ideal.ofBits, Ideal.ieee]

/-- An extended real whose absolute value is below `+∞` is a real number. -/
private theorem real_of_abs_lt (v : EReal)
    (hv : Ideal.cmp .olt (max v (-v)) (Ideal.ofBits .f32 0x7F800000#32) = 1#1) : ∃ r : ℝ, v = (r : EReal) := by
  rw [ofBits_pos_inf] at hv
  have hlt : max v (-v) < ⊤ := by
    by_contra hn
    have : Ideal.cmp .olt (max v (-v)) ⊤ = 0#1 := by
      show BitVec.ofBool (decide (max v (-v) < ⊤)) = 0#1
      rw [decide_eq_false hn]; rfl
    rw [this] at hv
    exact absurd hv (by decide)
  induction v using EReal.rec with
  | bot => simp at hlt
  | coe r => exact ⟨r, rfl⟩
  | top => simp at hlt

/-- Under the precondition the float inputs hold real numbers. -/
theorem finite_of_pre [hP : Cert.Pre_finite_inputs.Facts]
    (x y h p : Cert.Spec.Mat) (vals : Cert.Spec.Vals) (rows cols : Cert.Spec.Words)
    (hpre : Cert.Pre_finite_inputs.fn (F := Ideal) x y h p vals rows cols = fun _ => 1#1) :
    Cert.Spec.FiniteMat x ∧ Cert.Spec.FiniteMat y ∧ Cert.Spec.FiniteMat h ∧ Cert.Spec.FiniteMat p ∧ Cert.Spec.FiniteVals vals := by
  have h0 := congrFun hpre ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)
  · exact real_of_abs_lt _ (Host.reduce_andi_all _ _ _ _ _ h4 i)
  · exact real_of_abs_lt _ (Host.reduce_andi_all _ _ _ _ _ h5 i)

end Cert.Finite

end
-- ==== Proof.lean ====
/-
  Two programs compute, for 12288 nodes with 64 features, an attention-weighted mean of hidden rows over an
  edge list of 393216 edges, plus a parent row. The kernel program finds each column's largest scaled inner
  product with one streaming kernel, forms every edge's weight `exp((score − column maximum, capped at 0)·value)`
  on the host, routes the weighted hidden rows and the weights to their columns with a second kernel (a product
  with the edges' column indicator), and divides the routed sums by the routed total weight. The reference builds
  the dense score table, divides each edge's weight by its column's total weight first, and then routes.

  Over real inputs the two agree: an edge's score never exceeds its column's maximum, so the cap changes
  nothing, and a sum of quotients by one nonzero real is the quotient of the sum. The frames are the generated
  ones; the kernel program's result is read off its generated two-region run, the reference's off its
  generated run.
-/
import proofs.«417629_j27702539059750_3_alg».proof.Defs
import proofs.«417629_j27702539059750_3_alg».proof.Proof.Gen.Kernel
import proofs.«417629_j27702539059750_3_alg».proof.Proof.Gen.Kernel.Skeleton
import proofs.«417629_j27702539059750_3_alg».proof.Proof.Gen.Kernel.Launch
import proofs.«417629_j27702539059750_3_alg».proof.Proof.Gen.Kernel.Points
import proofs.«417629_j27702539059750_3_alg».proof.Proof.Gen.Kernel.Frame
import proofs.«417629_j27702539059750_3_alg».proof.Proof.Gen.KernelIdeal
import proofs.«417629_j27702539059750_3_alg».proof.Proof.Gen.KernelIdeal.Skeleton
import proofs.«417629_j27702539059750_3_alg».proof.Proof.Gen.KernelIdeal.Launch
import proofs.«417629_j27702539059750_3_alg».proof.Proof.Gen.KernelIdeal.Points
import proofs.«417629_j27702539059750_3_alg».proof.Proof.Gen.KernelIdeal.Frame
import proofs.«417629_j27702539059750_3_alg».proof.Proof.Gen.ReferenceIdeal
import proofs.«417629_j27702539059750_3_alg».proof.Proof.Gen.Pre_finite_inputs
import proofs.«417629_j27702539059750_3_alg».proof.Proof.Gen.ReferenceIdeal.Run
import proofs.«417629_j27702539059750_3_alg».proof.Proof.Gen.ReferenceIdeal.Read
import proofs.«417629_j27702539059750_3_alg».proof.Proof.RunValues
import proofs.«417629_j27702539059750_3_alg».proof.Proof.KernelTail
import proofs.«417629_j27702539059750_3_alg».proof.Proof.RefValue
import proofs.«417629_j27702539059750_3_alg».proof.Proof.Math
import proofs.«417629_j27702539059750_3_alg».proof.Proof.Finite
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts]
  [hP : Cert.Pre_finite_inputs.Facts]

/-- The word-level kernel program runs and leaves its arguments alone: the generated frame. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel program ends at "sum, then divide", the reference at "divide, then sum", of arguments that agree
    and are real: one function. -/
theorem algebraic : Cert.algebraic_KernelIdeal_ReferenceIdeal := by
  intro m ρ m' ρ' hpre hagree
  refine ⟨fun c => fun i => Cert.Spec.sumThenDivide
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (i 0) (i 1), ?_, ?_⟩
  · exact (θ_run Cert.KernelIdeal.defs _ _).mono
      (fun _ h c => ⟨(h c).1.trans (Cert.KernelIdeal.Hand.kernel_value m ρ c), (h c).2⟩)
      (Cert.KernelIdeal.RunV.run_values (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.ref_value m' c]
    obtain ⟨a0, a1, a2, a3, a4, a5, a6⟩ := hagree c
    rw [a0, a1, a2, a3, a4, a5, a6]
    obtain ⟨fx, fy, fh, -, fv⟩ := Cert.Finite.finite_of_pre _ _ _ _ _ _ _ (hpre c)
    funext i
    exact Cert.Math.divide_sum_comm _ _ _ _ _ _ _ fx fy fh fv (i 0) (i 1)

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
